-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S8x16x4096 : Shape := ⟨3, ![8, 16, 4096]⟩
abbrev S1x8x4096x16 : Shape := ⟨4, ![1, 8, 4096, 16]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x16x4096 : S_.BroadcastsInDim S8x16x4096 (![] : Fin 0 → Fin S8x16x4096.rank)
  reducesTo_S8x16x4096_S_d0_1_2 : S8x16x4096.ReducesTo [0, 1, 2] S_
  bcast_S_S1x8x4096x16 : S_.BroadcastsInDim S1x8x4096x16 (![] : Fin 0 → Fin S1x8x4096x16.rank)
  reducesTo_S1x8x4096x16_S_d0_1_2_3 : S1x8x4096x16.ReducesTo [0, 1, 2, 3] S_

variable [Facts]

def fn_part1 {F : FTy → Type} [FloatOps F] (main_arg4 : FVec F S1x8x4096x16 .f32) (main_v13 : IVec S_ 1) (main_v16 : IVec S8x16x4096 1) : IVec S_ 1 :=
  let main_c_5 : IVec S_ 1 := constantI S_ 1 1#1
  let main_v17 : IVec S_ 1 := (fun x v => Host.reduce IntOp.andi x v reducesTo_S8x16x4096_S_d0_1_2 h_S_) main_v16 main_c_5
  let main_v18 : IVec S_ 1 := andi main_v13 main_v17
  let main_v19 : FVec F S1x8x4096x16 .f32 := Host.absf main_arg4
  let main_cst_6 : FVec F S_ .f32 := constant S_ .f32 0x7F800000#32
  let main_v20 : FVec F S1x8x4096x16 .f32 := broadcastInDim S1x8x4096x16 ![] bcast_S_S1x8x4096x16 main_cst_6
  let main_v21 : IVec S1x8x4096x16 1 := cmpf .olt main_v19 main_v20
  let main_c_7 : IVec S_ 1 := constantI S_ 1 1#1
  let main_v22 : IVec S_ 1 := (fun x v => Host.reduce IntOp.andi x v reducesTo_S1x8x4096x16_S_d0_1_2_3 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S8x16x4096 .f32) (main_arg4 : FVec F S1x8x4096x16 .f32) (main_arg5 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x16x4096 .f32 := Host.absf main_arg3
  let main_cst_4 : FVec F S_ .f32 := constant S_ .f32 0x7F800000#32
  let main_v15 : FVec F S8x16x4096 .f32 := broadcastInDim S8x16x4096 ![] bcast_S_S8x16x4096 main_cst_4
  let main_v16 : IVec S8x16x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S8x16x4096 : Shape := ⟨3, ![8, 16, 4096]⟩
abbrev S1x8x4096x16 : Shape := ⟨4, ![1, 8, 4096, 16]⟩
abbrev S8192 : Shape := ⟨1, ![8192]⟩
abbrev S128x4096 : Shape := ⟨2, ![128, 4096]⟩
abbrev S8x4096x16 : Shape := ⟨3, ![8, 4096, 16]⟩
abbrev S1x4096 : Shape := ⟨2, ![1, 4096]⟩
abbrev S8192x1 : Shape := ⟨2, ![8192, 1]⟩
abbrev S1x8 : Shape := ⟨2, ![1, 8]⟩
abbrev S8192x8 : Shape := ⟨2, ![8192, 8]⟩
abbrev S8192x8x16 : Shape := ⟨3, ![8192, 8, 16]⟩
abbrev S8192x128 : Shape := ⟨2, ![8192, 128]⟩
abbrev S1024x512 : Shape := ⟨2, ![1024, 512]⟩
abbrev S128x512 : Shape := ⟨2, ![128, 512]⟩
abbrev S128x1024 : Shape := ⟨2, ![128, 1024]⟩
abbrev S1024x128 : Shape := ⟨2, ![1024, 128]⟩
abbrev S1x1024 : Shape := ⟨2, ![1, 1024]⟩
abbrev S1024x1024 : Shape := ⟨2, ![1024, 1024]⟩
abbrev S512x1024 : Shape := ⟨2, ![512, 1024]⟩
abbrev S512x128 : Shape := ⟨2, ![512, 128]⟩

abbrev nBuf : Space → Nat
  | .hbm => 20
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8x16x4096, .f32⟩
  | .hbm, ⟨4, _⟩ => ⟨S1x8x4096x16, .f32⟩
  | .hbm, ⟨5, _⟩ => ⟨S8192, .i32⟩
  | .hbm, ⟨6, _⟩ => ⟨S128x4096, .f32⟩
  | .hbm, ⟨7, _⟩ => ⟨S8x4096x16, .f32⟩
  | .hbm, ⟨8, _⟩ => ⟨S8x16x4096, .f32⟩
  | .hbm, ⟨9, _⟩ => ⟨S128x4096, .f32⟩
  | .hbm, ⟨10, _⟩ => ⟨S1x4096, .f32⟩
  | .hbm, ⟨11, _⟩ => ⟨S8192x1, .i32⟩
  | .hbm, ⟨12, _⟩ => ⟨S1x8, .i32⟩
  | .hbm, ⟨13, _⟩ => ⟨S8192x8, .i32⟩
  | .hbm, ⟨14, _⟩ => ⟨S8192x8, .i32⟩
  | .hbm, ⟨15, _⟩ => ⟨S8192x8, .i1⟩
  | .hbm, ⟨16, _⟩ => ⟨S8192x8, .f32⟩
  | .hbm, ⟨17, _⟩ => ⟨S8192x8x16, .f32⟩
  | .hbm, ⟨18, _⟩ => ⟨S8192x128, .f32⟩
  | .hbm, ⟨19, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S128x512, .f32⟩
  | .local _ .vmem, ⟨5, _⟩ => ⟨S128x512, .f32⟩
  | .local _ .vmem, ⟨6, _⟩ => ⟨S128x1024, .f32⟩
  | .local _ .vmem, ⟨7, _⟩ => ⟨S128x1024, .f32⟩
  | .local _ .vmem, ⟨8, _⟩ => ⟨S1024x128, .f32⟩
  | .local _ .vmem, ⟨9, _⟩ => ⟨S1024x128, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S8x16x4096_S128x4096 : S8x16x4096.ShapeCasts S128x4096
  shapeCasts_S1x8x4096x16_S8x4096x16 : S1x8x4096x16.ShapeCasts S8x4096x16
  transposes_S8x4096x16_S8x16x4096_0_2_1 : S8x4096x16.Transposes [0, 2, 1] S8x16x4096
  shapeCasts_S4096_S1x4096 : S4096.ShapeCasts S1x4096
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S1x8_S8192x8_0_1 : S1x8.BroadcastsInDim S8192x8 (![0, 1] : Fin 2 → Fin S8192x8.rank)
  bcast_S8192x8_S8192x8x16_0_1 : S8192x8.BroadcastsInDim S8192x8x16 (![0, 1] : Fin 2 → Fin S8192x8x16.rank)
  shapeCasts_S8192x8x16_S8192x128 : S8192x8x16.ShapeCasts S8192x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  transposes_S1024x512_p1_0_S512x1024 : S1024x512.Transposes [1, 0] S512x1024
  transposes_S128x512_p1_0_S512x128 : S128x512.Transposes [1, 0] S512x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  dot_S1024x512_S512x128_S1024x128_1_0_0_1_n_n_wf : DotDims.WF S1024x512 S512x128 S1024x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x4096.size a
  hwx0_2 : ∀ i : grid0.Coords, EltTy.bits .f32 = 32 ∨ (Rect.block (s := S128x4096) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x4096.size a
  hwx0_3 : ∀ i : grid0.Coords, EltTy.bits .f32 = 32 ∨ (Rect.block (s := S128x4096) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x4096.size a
  hwx0_6 : ∀ i : grid0.Coords, EltTy.bits .f32 = 32 ∨ (Rect.block (s := S8192x4096) S1024x1024.size (cc0_transform_6 i) (hinb0_6 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S8x16x4096 : Shape := ⟨3, ![8, 16, 4096]⟩
abbrev S1x8x4096x16 : Shape := ⟨4, ![1, 8, 4096, 16]⟩
abbrev S8192 : Shape := ⟨1, ![8192]⟩
abbrev S1x4096 : Shape := ⟨2, ![1, 4096]⟩
abbrev S8x4096x16 : Shape := ⟨3, ![8, 4096, 16]⟩
abbrev S_ : Shape := ⟨0, ![]⟩
abbrev S8192x1 : Shape := ⟨2, ![8192, 1]⟩
abbrev S1x16x4096 : Shape := ⟨3, ![1, 16, 4096]⟩
abbrev S16x4096 : Shape := ⟨2, ![16, 4096]⟩
abbrev S4096x16 : Shape := ⟨2, ![4096, 16]⟩
abbrev S8192x16 : Shape := ⟨2, ![8192, 16]⟩
abbrev S1x4096x16 : Shape := ⟨3, ![1, 4096, 16]⟩

abbrev nBuf : Space → Nat
  | .hbm => 146
  | .vmem => 0
  | .smem => 0
  | _ => 0

abbrev hbmTy0_0 (i : Nat) : BufTy := match i % 128 with
  | 0 => ⟨S8192x4096, .f32⟩
  | 1 => ⟨S4096x4096, .f32⟩
  | 2 => ⟨S4096, .f32⟩
  | 3 => ⟨S8x16x4096, .f32⟩
  | 4 => ⟨S1x8x4096x16, .f32⟩
  | 5 => ⟨S8192, .i32⟩
  | 6 => ⟨S4096x4096, .f32⟩
  | 7 => ⟨S8192x4096, .f32⟩
  | 8 => ⟨S1x4096, .f32⟩
  | 9 => ⟨S8192x4096, .f32⟩
  | 10 => ⟨S8192x4096, .f32⟩
  | 11 => ⟨S8x4096x16, .f32⟩
  | 12 => ⟨S_, .f32⟩
  | 13 => ⟨S8192x4096, .f32⟩
  | 14 => ⟨S_, .i32⟩
  | 15 => ⟨S8192, .i32⟩
  | 16 => ⟨S8192, .i1⟩
  | 17 => ⟨S8192, .f32⟩
  | 18 => ⟨S8192x1, .f32⟩
  | 19 => ⟨S8192x4096, .f32⟩
  | 20 => ⟨S8192x4096, .f32⟩
  | 21 => ⟨S1x16x4096, .f32⟩
  | 22 => ⟨S16x4096, .f32⟩
  | 23 => ⟨S4096x16, .f32⟩
  | 24 => ⟨S8192x16, .f32⟩
  | 25 => ⟨S1x4096x16, .f32⟩
  | 26 => ⟨S4096x16, .f32⟩
  | 27 => ⟨S16x4096, .f32⟩
  | 28 => ⟨S8192x4096, .f32⟩
  | 29 => ⟨S8192x4096, .f32⟩
  | 30 => ⟨S_, .i32⟩
  | 31 => ⟨S8192, .i32⟩
  | 32 => ⟨S8192, .i1⟩
  | 33 => ⟨S8192, .f32⟩
  | 34 => ⟨S8192x1, .f32⟩
  | 35 => ⟨S8192x4096, .f32⟩
  | 36 => ⟨S8192x4096, .f32⟩
  | 37 => ⟨S1x16x4096, .f32⟩
  | 38 => ⟨S16x4096, .f32⟩
  | 39 => ⟨S4096x16, .f32⟩
  | 40 => ⟨S8192x16, .f32⟩
  | 41 => ⟨S1x4096x16, .f32⟩
  | 42 => ⟨S4096x16, .f32⟩
  | 43 => ⟨S16x4096, .f32⟩
  | 44 => ⟨S8192x4096, .f32⟩
  | 45 => ⟨S8192x4096, .f32⟩
  | 46 => ⟨S_, .i32⟩
  | 47 => ⟨S8192, .i32⟩
  | 48 => ⟨S8192, .i1⟩
  | 49 => ⟨S8192, .f32⟩
  | 50 => ⟨S8192x1, .f32⟩
  | 51 => ⟨S8192x4096, .f32⟩
  | 52 => ⟨S8192x4096, .f32⟩
  | 53 => ⟨S1x16x4096, .f32⟩
  | 54 => ⟨S16x4096, .f32⟩
  | 55 => ⟨S4096x16, .f32⟩
  | 56 => ⟨S8192x16, .f32⟩
  | 57 => ⟨S1x4096x16, .f32⟩
  | 58 => ⟨S4096x16, .f32⟩
  | 59 => ⟨S16x4096, .f32⟩
  | 60 => ⟨S8192x4096, .f32⟩
  | 61 => ⟨S8192x4096, .f32⟩
  | 62 => ⟨S_, .i32⟩
  | 63 => ⟨S8192, .i32⟩
  | 64 => ⟨S8192, .i1⟩
  | 65 => ⟨S8192, .f32⟩
  | 66 => ⟨S8192x1, .f32⟩
  | 67 => ⟨S8192x4096, .f32⟩
  | 68 => ⟨S8192x4096, .f32⟩
  | 69 => ⟨S1x16x4096, .f32⟩
  | 70 => ⟨S16x4096, .f32⟩
  | 71 => ⟨S4096x16, .f32⟩
  | 72 => ⟨S8192x16, .f32⟩
  | 73 => ⟨S1x4096x16, .f32⟩
  | 74 => ⟨S4096x16, .f32⟩
  | 75 => ⟨S16x4096, .f32⟩
  | 76 => ⟨S8192x4096, .f32⟩
  | 77 => ⟨S8192x4096, .f32⟩
  | 78 => ⟨S_, .i32⟩
  | 79 => ⟨S8192, .i32⟩
  | 80 => ⟨S8192, .i1⟩
  | 81 => ⟨S8192, .f32⟩
  | 82 => ⟨S8192x1, .f32⟩
  | 83 => ⟨S8192x4096, .f32⟩
  | 84 => ⟨S8192x4096, .f32⟩
  | 85 => ⟨S1x16x4096, .f32⟩
  | 86 => ⟨S16x4096, .f32⟩
  | 87 => ⟨S4096x16, .f32⟩
  | 88 => ⟨S8192x16, .f32⟩
  | 89 => ⟨S1x4096x16, .f32⟩
  | 90 => ⟨S4096x16, .f32⟩
  | 91 => ⟨S16x4096, .f32⟩
  | 92 => ⟨S8192x4096, .f32⟩
  | 93 => ⟨S8192x4096, .f32⟩
  | 94 => ⟨S_, .i32⟩
  | 95 => ⟨S8192, .i32⟩
  | 96 => ⟨S8192, .i1⟩
  | 97 => ⟨S8192, .f32⟩
  | 98 => ⟨S8192x1, .f32⟩
  | 99 => ⟨S8192x4096, .f32⟩
  | 100 => ⟨S8192x4096, .f32⟩
  | 101 => ⟨S1x16x4096, .f32⟩
  | 102 => ⟨S16x4096, .f32⟩
  | 103 => ⟨S4096x16, .f32⟩
  | 104 => ⟨S8192x16, .f32⟩
  | 105 => ⟨S1x4096x16, .f32⟩
  | 106 => ⟨S4096x16, .f32⟩
  | 107 => ⟨S16x4096, .f32⟩
  | 108 => ⟨S8192x4096, .f32⟩
  | 109 => ⟨S8192x4096, .f32⟩
  | 110 => ⟨S_, .i32⟩
  | 111 => ⟨S8192, .i32⟩
  | 112 => ⟨S8192, .i1⟩
  | 113 => ⟨S8192, .f32⟩
  | 114 => ⟨S8192x1, .f32⟩
  | 115 => ⟨S8192x4096, .f32⟩
  | 116 => ⟨S8192x4096, .f32⟩
  | 117 => ⟨S1x16x4096, .f32⟩
  | 118 => ⟨S16x4096, .f32⟩
  | 119 => ⟨S4096x16, .f32⟩
  | 120 => ⟨S8192x16, .f32⟩
  | 121 => ⟨S1x4096x16, .f32⟩
  | 122 => ⟨S4096x16, .f32⟩
  | 123 => ⟨S16x4096, .f32⟩
  | 124 => ⟨S8192x4096, .f32⟩
  | 125 => ⟨S8192x4096, .f32⟩
  | 126 => ⟨S_, .i32⟩
  | 127 => ⟨S8192, .i32⟩
  | _ => ⟨S8192x4096, .f32⟩

abbrev hbmTy0_1 (i : Nat) : BufTy := match i % 128 with
  | 0 => ⟨S8192, .i1⟩
  | 1 => ⟨S8192, .f32⟩
  | 2 => ⟨S8192x1, .f32⟩
  | 3 => ⟨S8192x4096, .f32⟩
  | 4 => ⟨S8192x4096, .f32⟩
  | 5 => ⟨S1x16x4096, .f32⟩
  | 6 => ⟨S16x4096, .f32⟩
  | 7 => ⟨S4096x16, .f32⟩
  | 8 => ⟨S8192x16, .f32⟩
  | 9 => ⟨S1x4096x16, .f32⟩
  | 10 => ⟨S4096x16, .f32⟩
  | 11 => ⟨S16x4096, .f32⟩
  | 12 => ⟨S8192x4096, .f32⟩
  | 13 => ⟨S8192x4096, .f32⟩
  | 14 => ⟨S_, .f32⟩
  | 15 => ⟨S8192x4096, .f32⟩
  | 16 => ⟨S8192x4096, .f32⟩
  | 17 => ⟨S8192x4096, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_1 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_c_2 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_c_3 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_c_4 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_c_5 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_c_6 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_cst_7 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S1x8x4096x16_S8x4096x16 : S1x8x4096x16.ShapeCasts S8x4096x16
  bcast_S_S8192x4096 : S_.BroadcastsInDim S8192x4096 (![] : Fin 0 → Fin S8192x4096.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  slices_S8x16x4096_S1x16x4096_0_0_0 : S8x16x4096.Slices ![0, 0, 0] S1x16x4096
  shapeCasts_S1x16x4096_S16x4096 : S1x16x4096.ShapeCasts S16x4096
  transposes_S16x4096_S4096x16_1_0 : S16x4096.Transposes [1, 0] S4096x16
  slices_S8x4096x16_S1x4096x16_0_0_0 : S8x4096x16.Slices ![0, 0, 0] S1x4096x16
  shapeCasts_S1x4096x16_S4096x16 : S1x4096x16.ShapeCasts S4096x16
  transposes_S4096x16_S16x4096_1_0 : S4096x16.Transposes [1, 0] S16x4096
  slices_S8x16x4096_S1x16x4096_1_0_0 : S8x16x4096.Slices ![1, 0, 0] S1x16x4096
  slices_S8x4096x16_S1x4096x16_1_0_0 : S8x4096x16.Slices ![1, 0, 0] S1x4096x16
  slices_S8x16x4096_S1x16x4096_2_0_0 : S8x16x4096.Slices ![2, 0, 0] S1x16x4096
  slices_S8x4096x16_S1x4096x16_2_0_0 : S8x4096x16.Slices ![2, 0, 0] S1x4096x16
  slices_S8x16x4096_S1x16x4096_3_0_0 : S8x16x4096.Slices ![3, 0, 0] S1x16x4096
  slices_S8x4096x16_S1x4096x16_3_0_0 : S8x4096x16.Slices ![3, 0, 0] S1x4096x16
  slices_S8x16x4096_S1x16x4096_4_0_0 : S8x16x4096.Slices ![4, 0, 0] S1x16x4096
  slices_S8x4096x16_S1x4096x16_4_0_0 : S8x4096x16.Slices ![4, 0, 0] S1x4096x16
  slices_S8x16x4096_S1x16x4096_5_0_0 : S8x16x4096.Slices ![5, 0, 0] S1x16x4096
  slices_S8x4096x16_S1x4096x16_5_0_0 : S8x4096x16.Slices ![5, 0, 0] S1x4096x16
  slices_S8x16x4096_S1x16x4096_6_0_0 : S8x16x4096.Slices ![6, 0, 0] S1x16x4096
  slices_S8x4096x16_S1x4096x16_6_0_0 : S8x4096x16.Slices ![6, 0, 0] S1x4096x16
  slices_S8x16x4096_S1x16x4096_7_0_0 : S8x16x4096.Slices ![7, 0, 0] S1x16x4096
  slices_S8x4096x16_S1x4096x16_7_0_0 : S8x4096x16.Slices ![7, 0, 0] S1x4096x16
  dot_S8192x4096_S4096x4096_S8192x4096_1_0_0_1_n_n_wf : DotDims.WF S8192x4096 S4096x4096 S8192x4096 [1] [0] [0] [1] [] []
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf

class Facts : Prop extends Facts₀ where

variable [Facts]
-- ==== Proof.Pieces.lean ====
/-
  What each control case of the kernel body leaves in the two accumulators and in the output block, as the body's
  own arithmetic terms: the pieces the body stores, read back, are the payload terms of the values loaded.
-/
import proofs.«168198_j15144054685780_1_alg».proof.Proof.Gen.KernelIdeal.Frame
import Idealize.ShloMosaic.Lib.Pipeline.Value

set_option maxRecDepth 16384

noncomputable section

namespace Cert.Lora.Pieces

open Idealize.ShloMosaic Idealize.ShloMosaic.TcCoe Idealize.ShloMosaic.Tactic Idealize.SL.Sem
open Cert.KernelIdeal Cert.KernelIdeal.Gen

variable {F : FTy → Type} [FloatOps F]

/-- A rectangle at the origin. -/
theorem hz : (![0, 0] : Fin 2 → Nat) = fun _ => 0 := funext fun a => by fin_cases a <;> rfl

/-- At the first K-block the dense accumulator is reset and then updated: the update over zero. -/
theorem sout0_A_0_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (arg7 : Memref sig .tc .vmem S1024x128 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x128 .f32) (harg11 : arg11.IsWhole) (hc0 : cond0_0 i) (hc1 : ¬cond0_1 i) (x0 : Vec F S1024x512 .f32) (x1 : Vec F S1024x512 .f32) (x2 : Vec F S128x512 .f32) (x3 : Vec F S128x1024 .f32) (x4 : Vec F S1024x128 .f32) (x5 : Vec F S1x1024 .f32) :
    sout0_A_0 c i arg3 harg3 arg4 harg4 arg5 harg5 arg6 harg6 arg7 harg7 arg8 harg8 arg9 harg9 arg10 harg10 arg11 harg11 hc0 hc1 x0 x1 x2 x3 x4 x5 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1024) hz]
  simp only [View.readAt_eq_ld, Memref.IsWhole.read_unread, View.readCov_unit_zero (S := S1024x1024) _ hz, View.ld_unit_zero (S := S1024x512) hz, View.ld_unit_zero (S := S128x512) hz, View.ld_unit_zero (S := S128x1024) hz, View.ld_unit_zero (S := S1024x128) hz, View.ld_unit_zero (S := S1x1024) hz, View.ld_unit_zero (S := S1024x1024) hz]

/-- At the first K-block the projection accumulator is reset and then updated: the update over zero. -/
theorem sout0_A_1_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (arg7 : Memref sig .tc .vmem S1024x128 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x128 .f32) (harg11 : arg11.IsWhole) (hc0 : cond0_0 i) (hc1 : ¬cond0_1 i) (x0 : Vec F S1024x512 .f32) (x1 : Vec F S1024x512 .f32) (x2 : Vec F S128x512 .f32) (x3 : Vec F S128x1024 .f32) (x4 : Vec F S1024x128 .f32) (x5 : Vec F S1x1024 .f32) :
    sout0_A_1 c i arg3 harg3 arg4 harg4 arg5 harg5 arg6 harg6 arg7 harg7 arg8 harg8 arg9 harg9 arg10 harg10 arg11 harg11 hc0 hc1 x0 x1 x2 x3 x4 x5 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x128) hz]
  simp only [View.readAt_eq_ld, Memref.IsWhole.read_unread, View.readCov_unit_zero (S := S1024x128) _ hz, View.ld_unit_zero (S := S1024x512) hz, View.ld_unit_zero (S := S128x512) hz, View.ld_unit_zero (S := S128x1024) hz, View.ld_unit_zero (S := S1024x128) hz, View.ld_unit_zero (S := S1x1024) hz, View.ld_unit_zero (S := S1024x1024) hz]

/-- At a middle K-block the dense accumulator is updated over what the point before left. -/
theorem sout0_B_0_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (arg7 : Memref sig .tc .vmem S1024x128 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x128 .f32) (harg11 : arg11.IsWhole) (hc0 : ¬cond0_0 i) (hc1 : ¬cond0_1 i) (x0 : Vec F S1024x512 .f32) (x1 : Vec F S1024x512 .f32) (x2 : Vec F S128x512 .f32) (x3 : Vec F S128x1024 .f32) (x4 : Vec F S1024x128 .f32) (x5 : Vec F S1x1024 .f32) (xs0 : Vec F S1024x1024 .f32) (xs1 : Vec F S1024x128 .f32) :
    sout0_B_0 c i arg3 harg3 arg4 harg4 arg5 harg5 arg6 harg6 arg7 harg7 arg8 harg8 arg9 harg9 arg10 harg10 arg11 harg11 hc0 hc1 x0 x1 x2 x3 x4 x5 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, Memref.IsWhole.read_unread, View.ld_unit_zero (S := S1024x512) hz, View.ld_unit_zero (S := S128x512) hz, View.ld_unit_zero (S := S128x1024) hz, View.ld_unit_zero (S := S1024x128) hz, View.ld_unit_zero (S := S1x1024) hz, View.ld_unit_zero (S := S1024x1024) hz]

/-- At a middle K-block the projection accumulator is updated over what the point before left. -/
theorem sout0_B_1_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (arg7 : Memref sig .tc .vmem S1024x128 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x128 .f32) (harg11 : arg11.IsWhole) (hc0 : ¬cond0_0 i) (hc1 : ¬cond0_1 i) (x0 : Vec F S1024x512 .f32) (x1 : Vec F S1024x512 .f32) (x2 : Vec F S128x512 .f32) (x3 : Vec F S128x1024 .f32) (x4 : Vec F S1024x128 .f32) (x5 : Vec F S1x1024 .f32) (xs0 : Vec F S1024x1024 .f32) (xs1 : Vec F S1024x128 .f32) :
    sout0_B_1 c i arg3 harg3 arg4 harg4 arg5 harg5 arg6 harg6 arg7 harg7 arg8 harg8 arg9 harg9 arg10 harg10 arg11 harg11 hc0 hc1 x0 x1 x2 x3 x4 x5 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, Memref.IsWhole.read_unread, View.ld_unit_zero (S := S1024x512) hz, View.ld_unit_zero (S := S128x512) hz, View.ld_unit_zero (S := S128x1024) hz, View.ld_unit_zero (S := S1024x128) hz, View.ld_unit_zero (S := S1x1024) hz, View.ld_unit_zero (S := S1024x1024) hz]

/-- At the last K-block the dense accumulator is updated over what the point before left. -/
theorem sout0_C_0_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (arg7 : Memref sig .tc .vmem S1024x128 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x128 .f32) (harg11 : arg11.IsWhole) (hc0 : ¬cond0_0 i) (hc1 : cond0_1 i) (x0 : Vec F S1024x512 .f32) (x1 : Vec F S1024x512 .f32) (x2 : Vec F S128x512 .f32) (x3 : Vec F S128x1024 .f32) (x4 : Vec F S1024x128 .f32) (x5 : Vec F S1x1024 .f32) (xs0 : Vec F S1024x1024 .f32) (xs1 : Vec F S1024x128 .f32) :
    sout0_C_0 c i arg3 harg3 arg4 harg4 arg5 harg5 arg6 harg6 arg7 harg7 arg8 harg8 arg9 harg9 arg10 harg10 arg11 harg11 hc0 hc1 x0 x1 x2 x3 x4 x5 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, Memref.IsWhole.read_unread, View.ld_unit_zero (S := S1024x512) hz, View.ld_unit_zero (S := S128x512) hz, View.ld_unit_zero (S := S128x1024) hz, View.ld_unit_zero (S := S1024x128) hz, View.ld_unit_zero (S := S1x1024) hz, View.ld_unit_zero (S := S1024x1024) hz]

/-- At the last K-block the projection accumulator is updated over what the point before left. -/
theorem sout0_C_1_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (arg7 : Memref sig .tc .vmem S1024x128 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x128 .f32) (harg11 : arg11.IsWhole) (hc0 : ¬cond0_0 i) (hc1 : cond0_1 i) (x0 : Vec F S1024x512 .f32) (x1 : Vec F S1024x512 .f32) (x2 : Vec F S128x512 .f32) (x3 : Vec F S128x1024 .f32) (x4 : Vec F S1024x128 .f32) (x5 : Vec F S1x1024 .f32) (xs0 : Vec F S1024x1024 .f32) (xs1 : Vec F S1024x128 .f32) :
    sout0_C_1 c i arg3 harg3 arg4 harg4 arg5 harg5 arg6 harg6 arg7 harg7 arg8 harg8 arg9 harg9 arg10 harg10 arg11 harg11 hc0 hc1 x0 x1 x2 x3 x4 x5 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, Memref.IsWhole.read_unread, View.ld_unit_zero (S := S1024x512) hz, View.ld_unit_zero (S := S128x512) hz, View.ld_unit_zero (S := S128x1024) hz, View.ld_unit_zero (S := S1024x128) hz, View.ld_unit_zero (S := S1x1024) hz, View.ld_unit_zero (S := S1024x1024) hz]

/-- At the last K-block the output block is computed from the two accumulators just updated, the mask block, the second-factor block and the bias block. -/
theorem out0_C_6_eq (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S128x512 .f32) (harg5 : arg5.IsWhole) (arg6 : Memref sig .tc .vmem S128x1024 .f32) (harg6 : arg6.IsWhole) (arg7 : Memref sig .tc .vmem S1024x128 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x128 .f32) (harg11 : arg11.IsWhole) (hc0 : ¬cond0_0 i) (hc1 : cond0_1 i) (x0 : Vec F S1024x512 .f32) (x1 : Vec F S1024x512 .f32) (x2 : Vec F S128x512 .f32) (x3 : Vec F S128x1024 .f32) (x4 : Vec F S1024x128 .f32) (x5 : Vec F S1x1024 .f32) (xs0 : Vec F S1024x1024 .f32) (xs1 : Vec F S1024x128 .f32) :
    out0_C_6 c i arg3 harg3 arg4 harg4 arg5 harg5 arg6 harg6 arg7 harg7 arg8 harg8 arg9 harg9 arg10 harg10 arg11 harg11 hc0 hc1 x0 x1 x2 x3 x4 x5 xs0 xs1 = k0_pay6 (k0_pay5 x0 x2 xs1) x4 x3 (k0_pay4 x0 x1 xs0) x5 := by
  unfold out0_C_6
  rw [View.read_writes_eq_canon _ _ _ (cover0_C_6 c i arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, Memref.IsWhole.read_unread, View.readCov_unit_zero (S := S1024x128) _ hz, View.readCov_unit_zero (S := S1024x1024) _ hz, View.ld_unit_zero (S := S1024x512) hz, View.ld_unit_zero (S := S128x512) hz, View.ld_unit_zero (S := S128x1024) hz, View.ld_unit_zero (S := S1024x128) hz, View.ld_unit_zero (S := S1x1024) hz, View.ld_unit_zero (S := S1024x1024) hz]

end Cert.Lora.Pieces

end
-- ==== Proof.Spec.lean ====
/-
  The function both programs compute, over the extended reals.

  Token s carries a row x(s, ·) of 4096 reals and an adapter number idx(s). The layer's output at (s, o) is the dense
  product with the weight's row o plus the bias, plus twice the low-rank correction of the adapter the token selects:

      out(s, o) = (∑ₖ x(s,k)·w(o,k) + bias(o)) + 2 · ∑ₗ ∑ᵣ ((∑ₖ x(s,k)·a(l,r,k)) · sel(s,l)) · b(0,l,o,r)

  where sel(s, l) is 1 when idx(s) = l and 0 otherwise (so a token whose number is no adapter's gets no correction).
  Because sel takes only the values 0 and 1, it may stand inside or outside the sum over k: both x·0 and (∑ …)·0 are 0
  on the extended reals, infinities included. That, and reordering finite sums, is all the algebra the two programs differ by.
-/
import Idealize.ShloMosaic.PureOps.Ideal
import Idealize.ShloMosaic.Lib.ValueIdx
import Mathlib.Algebra.BigOperators.Fin

noncomputable section

open scoped BigOperators

namespace Cert.Lora

open Idealize.ShloMosaic Idealize.ShloMosaic.ValueIdx

abbrev XS : Shape := ⟨2, ![8192, 4096]⟩
abbrev WS : Shape := ⟨2, ![4096, 4096]⟩
abbrev BiasS : Shape := ⟨1, ![4096]⟩
abbrev AS : Shape := ⟨3, ![8, 16, 4096]⟩
abbrev BS : Shape := ⟨4, ![1, 8, 4096, 16]⟩
abbrev IdxS : Shape := ⟨1, ![8192]⟩

/-- The selection weight of adapter l for token s: 1 when the token's number is l, else 0. -/
def sel (idx : IdxS.Idx → BitVec 32) (s : Fin 8192) (l : Fin 8) : EReal :=
  (((IntOp.cmpi .eq (idx (ix1 s)) (BitVec.ofNat 32 l.val)).toNat : ℝ) : EReal)

theorem sel_zero_or_one (idx : IdxS.Idx → BitVec 32) (s : Fin 8192) (l : Fin 8) : sel idx s l = 0 ∨ sel idx s l = 1 := by
  unfold sel IntOp.cmpi
  dsimp only
  cases (idx (ix1 s) == BitVec.ofNat 32 l.val) with
  | false => left; simp
  | true => right; simp

/-- The dense product: row s of x against row o of w. -/
def base (x : XS.Idx → EReal) (w : WS.Idx → EReal) (s : Fin 8192) (o : Fin 4096) : EReal :=
  ∑ k : Fin 4096, x (ix2 s k) * w (ix2 o k)

/-- Token s projected on row r of adapter l's first factor. -/
def proj (x : XS.Idx → EReal) (a : AS.Idx → EReal) (s : Fin 8192) (l : Fin 8) (r : Fin 16) : EReal :=
  ∑ k : Fin 4096, x (ix2 s k) * a (ix3 l r k)

/-- The low-rank correction: over all adapters, the selected one's projection through its second factor. -/
def lora (x : XS.Idx → EReal) (a : AS.Idx → EReal) (b : BS.Idx → EReal) (idx : IdxS.Idx → BitVec 32)
    (s : Fin 8192) (o : Fin 4096) : EReal :=
  ∑ l : Fin 8, ∑ r : Fin 16, (proj x a s l r * sel idx s l) * b (ix4 0 l o r)

/-- The scale of the correction, the float 2.0. -/
def two : EReal := Ideal.ofBits .f32 0x40000000#32

/-- The layer's output. -/
def G (x : XS.Idx → EReal) (w : WS.Idx → EReal) (bias : BiasS.Idx → EReal) (a : AS.Idx → EReal) (b : BS.Idx → EReal)
    (idx : IdxS.Idx → BitVec 32) : XS.Idx → EReal := fun i =>
  (base x w (i 0) (i 1) + bias (ix1 (i 1))) + two * lora x a b idx (i 0) (i 1)

theorem G_apply (x : XS.Idx → EReal) (w : WS.Idx → EReal) (bias : BiasS.Idx → EReal) (a : AS.Idx → EReal) (b : BS.Idx → EReal)
    (idx : IdxS.Idx → BitVec 32) (s : Fin 8192) (o : Fin 4096) :
    G x w bias a b idx (ix2 s o) = (base x w s o + bias (ix1 o)) + two * lora x a b idx s o := rfl

end Cert.Lora

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.Payloads.lean ====
/-
  The kernel body's arithmetic, entry by entry, over the extended reals.

  One step of the dense accumulator adds, at entry (p, q), the products of row p of the token block with row q of the
  weight block over the 512 columns of the K-block; one step of the projection accumulator the same against row c of
  the merged first factors. The closing step adds the bias to the dense accumulator and twice the product of the
  masked projections with the merged second factors. Changes of float format are the identity here.
-/
import proofs.«168198_j15144054685780_1_alg».proof.Proof.Gen.KernelIdeal.Skeleton
import proofs.«168198_j15144054685780_1_alg».proof.Proof.Spec
import proofs.«168198_j15144054685780_1_alg».proof.Proof.LibRowBlock
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Lora.Body

open Idealize.ShloMosaic Idealize.ShloMosaic.ValueIdx
open Cert.KernelIdeal Cert.KernelIdeal.Gen

/-- A matrix transposed, read at (k, q), is the matrix at (q, k). -/
private theorem transpose10_apply {a b : ℕ} {α : Type} (x : (⟨2, ![a, b]⟩ : Shape).Idx → α)
    (h : (⟨2, ![a, b]⟩ : Shape).Transposes [1, 0] ⟨2, ![b, a]⟩) (k : Fin b) (q : Fin a) :
    transpose ⟨2, ![b, a]⟩ [1, 0] x h (ix2 k q) = x (ix2 q k) :=
  transpose_apply [1, 0] x h (ix2 k q) (ix2 q k) (fun ax => match ax with
    | ⟨0, _⟩ => rfl
    | ⟨1, _⟩ => rfl)

/-- The accumulators are reset to zero. -/
theorem pay1_apply (j : S1024x1024.Idx) : (k0_pay1 (F := Ideal) j : EReal) = 0 := by
  unfold k0_pay1
  rw [shapeCast_self]
  exact Ideal.ofBits_zero_f32

theorem pay2_apply (j : S1024x128.Idx) : (k0_pay2 (F := Ideal) j : EReal) = 0 := by
  unfold k0_pay2
  rw [shapeCast_self]
  exact Ideal.ofBits_zero_f32

/-- One step of the dense accumulator. -/
theorem pay4_apply (x0 x1 : Vec Ideal S1024x512 .f32) (acc : Vec Ideal S1024x1024 .f32) (p q : Fin 1024) :
    (k0_pay4 x0 x1 acc (ix2 p q) : EReal) = acc (ix2 p q) + ∑ k' : Fin 512, x0 (ix2 p k') * x1 (ix2 q k') := by
  unfold k0_pay4 k0_pay3
  dsimp only
  rw [shapeCast_self]
  -- the accumulator plus the product, entry by entry; the product into zero is the plain sum over the 512 columns
  refine congrArg (acc (ix2 p q) + ·) ?_
  refine (Ideal.matmul_constant_zero_apply _ none _ _ (ix2 p q)).trans ?_
  refine (Cert.RowBlock.IsRows.dot_plain_sum dot_S1024x512_S512x1024_S1024x1024_1_0_0_1_n_n
    ⟨rfl, rfl, rfl, rfl, rfl, rfl⟩ _ _ p q).trans ?_
  refine Finset.sum_congr rfl fun k' _ => ?_
  -- the transposed weight block at (k', q) is the weight block at (q, k')
  exact congrArg (x0 (ix2 p k') * ·) (transpose10_apply _ _ k' q)

/-- One step of the projection accumulator. -/
theorem pay5_apply (x0 : Vec Ideal S1024x512 .f32) (x2 : Vec Ideal S128x512 .f32) (acc : Vec Ideal S1024x128 .f32)
    (p : Fin 1024) (cc : Fin 128) :
    (k0_pay5 x0 x2 acc (ix2 p cc) : EReal) = acc (ix2 p cc) + ∑ k' : Fin 512, x0 (ix2 p k') * x2 (ix2 cc k') := by
  unfold k0_pay5 k0_pay3
  dsimp only
  rw [shapeCast_self, shapeCast_self]
  refine congrArg (acc (ix2 p cc) + ·) ?_
  refine (Ideal.matmul_constant_zero_apply _ none _ _ (ix2 p cc)).trans ?_
  refine (Cert.RowBlock.IsRows.dot_plain_sum dot_S1024x512_S512x128_S1024x128_1_0_0_1_n_n
    ⟨rfl, rfl, rfl, rfl, rfl, rfl⟩ _ _ p cc).trans ?_
  refine Finset.sum_congr rfl fun k' _ => ?_
  -- the transposed factor block at (k', c) is the factor block at (c, k')
  exact congrArg (x0 (ix2 p k') * ·) (transpose10_apply _ _ k' cc)

/-- The closing step: dense part plus bias, plus twice the masked projections through the second factors. -/
theorem pay6_apply (accA mask : Vec Ideal S1024x128 .f32) (bb : Vec Ideal S128x1024 .f32) (accB : Vec Ideal S1024x1024 .f32)
    (bias : Vec Ideal S1x1024 .f32) (p q : Fin 1024) :
    (k0_pay6 accA mask bb accB bias (ix2 p q) : EReal)
      = (accB (ix2 p q) + bias (ix2 0 q)) + Cert.Lora.two * ∑ cc : Fin 128, (accA (ix2 p cc) * mask (ix2 p cc)) * bb (ix2 cc q) := by
  unfold k0_pay6
  rw [shapeCast_self, shapeCast_self, shapeCast_self]
  -- the bias row is read at column q whatever the row; the product into zero is the plain sum over the 128 columns
  exact congrArg₂ (· + ·)
    (congrArg (accB (ix2 p q) + ·) (broadcastTo_1b_ab_apply bias broadcasts_S1x1024_S1024x1024 p q))
    (congrArg (Cert.Lora.two * ·)
      ((Ideal.matmul_constant_zero_apply _ none _ _ (ix2 p q)).trans
        (Cert.RowBlock.IsRows.dot_plain_sum dot_S1024x128_S128x1024_S1024x1024_1_0_0_1_n_n
          ⟨rfl, rfl, rfl, rfl, rfl, rfl⟩ _ _ p q)))

end Cert.Lora.Body

end
-- ==== Proof.Layout.lean ====
/-
  How the kernel's tiles and merged axes sit inside the arrays: block i of 1024 token rows, block j of 1024 output
  columns, K-block k of 512 input columns, and lane 16·l + r of the merged adapter axis for row r of adapter l.
-/
import Mathlib.Data.Fin.Basic
import Mathlib.Tactic.NormNum

namespace Cert.Lora

/-- Row p of token block i. -/
def row8 (i : Fin 8) (p : Fin 1024) : Fin 8192 := ⟨1024 * i.val + p.val, by have := i.isLt; have := p.isLt; omega⟩
/-- Column q of output block j. -/
def col4 (j : Fin 4) (q : Fin 1024) : Fin 4096 := ⟨1024 * j.val + q.val, by have := j.isLt; have := q.isLt; omega⟩
/-- Column k' of K-block k. -/
def kcol (k : Fin 8) (k' : Fin 512) : Fin 4096 := ⟨512 * k.val + k'.val, by have := k.isLt; have := k'.isLt; omega⟩
/-- The merged adapter axis: row r of adapter l. -/
def lane (l : Fin 8) (r : Fin 16) : Fin 128 := ⟨16 * l.val + r.val, by have := l.isLt; have := r.isLt; omega⟩

theorem row8_val (i : Fin 8) (p : Fin 1024) : (row8 i p).val = 1024 * i.val + p.val := rfl
theorem col4_val (j : Fin 4) (q : Fin 1024) : (col4 j q).val = 1024 * j.val + q.val := rfl
theorem kcol_val (k : Fin 8) (k' : Fin 512) : (kcol k k').val = 512 * k.val + k'.val := rfl
theorem lane_val (l : Fin 8) (r : Fin 16) : (lane l r).val = 16 * l.val + r.val := rfl

end Cert.Lora
-- ==== Proof.BlockReads.lean ====
/-
  The blocks the pipeline stages at a grid point, read at an index of the arrays the region finds. Point t is
  (i, j, k) = (t / 32, t / 8 mod 4, t mod 8): token block i, output-column block j, K-block k.
-/
import proofs.«168198_j15144054685780_1_alg».proof.Proof.Gen.KernelIdeal.Frame
import proofs.«168198_j15144054685780_1_alg».proof.Proof.Layout
import Idealize.ShloMosaic.Lib.ValueIdx
import Idealize.ShloMosaic.Lib.Pipeline.Value

noncomputable section

namespace Cert.Lora.Blocks

open Idealize.ShloMosaic Idealize.ShloMosaic.TcCoe Idealize.ShloMosaic.ValueIdx Idealize.SL.Sem
open Cert.KernelIdeal Cert.KernelIdeal.Gen

theorem lt256 (t : Fin cfg0.N) : t.val < 256 := lt_of_lt_of_eq t.isLt (show cfg0.N = 256 from N_0)

/-- The token block of point t. -/
def ti (t : Fin cfg0.N) : Fin 8 := ⟨t.val / 32, by have := lt256 t; omega⟩
/-- The output-column block of point t. -/
def tj (t : Fin cfg0.N) : Fin 4 := ⟨t.val / 8 % 4, by omega⟩
/-- The K-block of point t. -/
def tk (t : Fin cfg0.N) : Fin 8 := ⟨t.val % 8, by omega⟩

theorem ti_val (t : Fin cfg0.N) : (ti t).val = t.val / 32 := rfl
theorem tj_val (t : Fin cfg0.N) : (tj t).val = t.val / 8 % 4 := rfl
theorem tk_val (t : Fin cfg0.N) : (tk t).val = t.val % 8 := rfl

/-- The printed index maps, decided once over the 256 grid points: the token block is t / 32, the output-column block
    t / 8 mod 4, the K-block t mod 8, and the axes a window does not move along stay at block 0. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val % 8
    ∧ win0_3.index t (0 : Fin 2) = 0 ∧ win0_3.index t (1 : Fin 2) = t.val / 8 % 4
    ∧ win0_4.index t (0 : Fin 2) = t.val / 32 ∧ win0_4.index t (1 : Fin 2) = 0
    ∧ win0_5.index t (0 : Fin 2) = 0 ∧ win0_5.index t (1 : Fin 2) = t.val / 8 % 4 :=
  (by decide +kernel : ∀ t : Fin grid0.N, _)

variable {F : FTy → Type} [FloatOps F]
variable (m : (ℓ : Loc nD τ sig) → Buf (Elt F) ℓ)

/-- The token block: rows of block i, columns of K-block k. -/
theorem iblk0_apply (c : Dev nD) (t : Fin cfg0.N) (p : Fin 1024) (k' : Fin 512) :
    (iblk m c 0 t : Vec F S1024x512 .f32) (ix2 p k')
      = (V m c main_arg0 : Vec F S8192x4096 .f32) (ix2 (row8 (ti t) p) (kcol (tk t) k')) := by
  obtain ⟨e0, e1, -⟩ := idx_facts t
  unfold iblk
  rw [View.read_apply]
  show V m c main_arg0 (((cfg0.win 0).blk t).view.emb (ix2 p k')) = V m c main_arg0 (ix2 (row8 (ti t) p) (kcol (tk t) k'))
  refine congrArg _ (funext fun a => Fin.ext ?_)
  match a with
  | ⟨0, _⟩ => show win0_0.index t (0 : Fin 2) * 1024 + 1 * p.val = (row8 (ti t) p).val; rw [e0, row8_val, ti_val]; omega
  | ⟨1, _⟩ => show win0_0.index t (1 : Fin 2) * 512 + 1 * k'.val = (kcol (tk t) k').val; rw [e1, kcol_val, tk_val]; omega

/-- The weight block: rows of output block j, columns of K-block k. -/
theorem iblk1_apply (c : Dev nD) (t : Fin cfg0.N) (q : Fin 1024) (k' : Fin 512) :
    (iblk m c 1 t : Vec F S1024x512 .f32) (ix2 q k')
      = (V m c main_arg1 : Vec F S4096x4096 .f32) (ix2 (col4 (tj t) q) (kcol (tk t) k')) := by
  obtain ⟨-, -, e0, e1, -⟩ := idx_facts t
  unfold iblk
  rw [View.read_apply]
  show V m c main_arg1 (((cfg0.win 1).blk t).view.emb (ix2 q k')) = V m c main_arg1 (ix2 (col4 (tj t) q) (kcol (tk t) k'))
  refine congrArg _ (funext fun a => Fin.ext ?_)
  match a with
  | ⟨0, _⟩ => show win0_1.index t (0 : Fin 2) * 1024 + 1 * q.val = (col4 (tj t) q).val; rw [e0, col4_val, tj_val]; omega
  | ⟨1, _⟩ => show win0_1.index t (1 : Fin 2) * 512 + 1 * k'.val = (kcol (tk t) k').val; rw [e1, kcol_val, tk_val]; omega

/-- The merged first factors' block: all 128 lanes, columns of K-block k. -/
theorem iblk2_apply (c : Dev nD) (t : Fin cfg0.N) (cc : Fin 128) (k' : Fin 512) :
    (iblk m c 2 t : Vec F S128x512 .f32) (ix2 cc k')
      = (V m c main_v0 : Vec F S128x4096 .f32) (ix2 cc (kcol (tk t) k')) := by
  obtain ⟨-, -, -, -, e0, e1, -⟩ := idx_facts t
  unfold iblk
  rw [View.read_apply]
  show V m c main_v0 (((cfg0.win 2).blk t).view.emb (ix2 cc k')) = V m c main_v0 (ix2 cc (kcol (tk t) k'))
  refine congrArg _ (funext fun a => Fin.ext ?_)
  match a with
  | ⟨0, _⟩ => show win0_2.index t (0 : Fin 2) * 128 + 1 * cc.val = cc.val; rw [e0]; omega
  | ⟨1, _⟩ => show win0_2.index t (1 : Fin 2) * 512 + 1 * k'.val = (kcol (tk t) k').val; rw [e1, kcol_val, tk_val]; omega

/-- The merged second factors' block: all 128 lanes, columns of output block j. -/
theorem iblk3_apply (c : Dev nD) (t : Fin cfg0.N) (cc : Fin 128) (q : Fin 1024) :
    (iblk m c 3 t : Vec F S128x1024 .f32) (ix2 cc q)
      = (V m c main_v3 : Vec F S128x4096 .f32) (ix2 cc (col4 (tj t) q)) := by
  obtain ⟨-, -, -, -, -, -, e0, e1, -⟩ := idx_facts t
  unfold iblk
  rw [View.read_apply]
  show V m c main_v3 (((cfg0.win 3).blk t).view.emb (ix2 cc q)) = V m c main_v3 (ix2 cc (col4 (tj t) q))
  refine congrArg _ (funext fun a => Fin.ext ?_)
  match a with
  | ⟨0, _⟩ => show win0_3.index t (0 : Fin 2) * 128 + 1 * cc.val = cc.val; rw [e0]; omega
  | ⟨1, _⟩ => show win0_3.index t (1 : Fin 2) * 1024 + 1 * q.val = (col4 (tj t) q).val; rw [e1, col4_val, tj_val]; omega

/-- The mask block: rows of token block i, all 128 lanes. -/
theorem iblk4_apply (c : Dev nD) (t : Fin cfg0.N) (p : Fin 1024) (cc : Fin 128) :
    (iblk m c 4 t : Vec F S1024x128 .f32) (ix2 p cc)
      = (V m c main_v7 : Vec F S8192x128 .f32) (ix2 (row8 (ti t) p) cc) := by
  obtain ⟨-, -, -, -, -, -, -, -, e0, e1, -⟩ := idx_facts t
  unfold iblk
  rw [View.read_apply]
  show V m c main_v7 (((cfg0.win 4).blk t).view.emb (ix2 p cc)) = V m c main_v7 (ix2 (row8 (ti t) p) cc)
  refine congrArg _ (funext fun a => Fin.ext ?_)
  match a with
  | ⟨0, _⟩ => show win0_4.index t (0 : Fin 2) * 1024 + 1 * p.val = (row8 (ti t) p).val; rw [e0, row8_val, ti_val]; omega
  | ⟨1, _⟩ => show win0_4.index t (1 : Fin 2) * 128 + 1 * cc.val = cc.val; rw [e1]; omega

/-- The bias block: the one row, columns of output block j. -/
theorem iblk5_apply (c : Dev nD) (t : Fin cfg0.N) (q : Fin 1024) :
    (iblk m c 5 t : Vec F S1x1024 .f32) (ix2 0 q)
      = (V m c main_v4 : Vec F S1x4096 .f32) (ix2 0 (col4 (tj t) q)) := by
  obtain ⟨-, -, -, -, -, -, -, -, -, -, e0, e1⟩ := idx_facts t
  unfold iblk
  rw [View.read_apply]
  show V m c main_v4 (((cfg0.win 5).blk t).view.emb (ix2 0 q)) = V m c main_v4 (ix2 0 (col4 (tj t) q))
  refine congrArg _ (funext fun a => Fin.ext ?_)
  match a with
  | ⟨0, _⟩ => show win0_5.index t (0 : Fin 2) * 1 + 1 * (0 : Fin 1).val = (0 : Fin 1).val; rw [e0]; simp
  | ⟨1, _⟩ => show win0_5.index t (1 : Fin 2) * 1024 + 1 * q.val = (col4 (tj t) q).val; rw [e1, col4_val, tj_val]; omega

end Cert.Lora.Blocks

end
-- ==== Proof.Sums.lean ====
/-
  Finite sums, rearranged.

  A sum over n = a·b indices is the sum over a blocks of the sums over each block's b indices. A running total over the
  first blocks grows by one block at a time and is the whole sum once the last block is in. A factor that is 0 or 1
  may be moved from every term of a sum of products to the sum itself, on the extended reals, infinities included.
-/
import Mathlib.Algebra.BigOperators.Fin
import Mathlib.Logic.Equiv.Fin.Basic
import Mathlib.Data.EReal.Basic

noncomputable section

open scoped BigOperators

namespace Cert.Lora.Sums

section Blocks
variable {M : Type*} [AddCommMonoid M]

/-- A sum over a·b indices, block by block: index b·j + k' is the k'-th of block j. -/
theorem sum_split (a b n : ℕ) (h : a * b = n) (f : Fin n → M) :
    ∑ k : Fin n, f k = ∑ j : Fin a, ∑ k' : Fin b,
      f ⟨b * j.val + k'.val, by
        have hj := j.isLt; have hk := k'.isLt
        calc b * j.val + k'.val < b * j.val + b := by omega
          _ = b * (j.val + 1) := by ring
          _ ≤ b * a := Nat.mul_le_mul_left b hj
          _ = n := by rw [Nat.mul_comm]; exact h⟩ := by
  subst h
  rw [← Equiv.sum_comp finProdFinEquiv f, Fintype.sum_prod_type]
  refine Finset.sum_congr rfl fun j _ => Finset.sum_congr rfl fun k' _ => congrArg f (Fin.ext ?_)
  show k'.val + b * j.val = b * j.val + k'.val
  omega

/-- The blocks up to and including block k. -/
def upTo (n k : ℕ) : Finset (Fin n) := Finset.univ.filter fun j => j.val ≤ k

theorem sum_upTo_zero {n : ℕ} (f : Fin (n + 1) → M) : ∑ j ∈ upTo (n + 1) 0, f j = f 0 := by
  have e : upTo (n + 1) 0 = {0} := by
    ext j; simp only [upTo, Finset.mem_filter, Finset.mem_univ, true_and, Finset.mem_singleton]
    constructor
    · intro h; exact Fin.ext (by have : (0 : Fin (n + 1)).val = 0 := rfl; omega)
    · intro h; subst h; exact le_refl _
  rw [e, Finset.sum_singleton]

theorem sum_upTo_succ {n : ℕ} (f : Fin n → M) (k : ℕ) (hk : k + 1 < n) :
    ∑ j ∈ upTo n (k + 1), f j = (∑ j ∈ upTo n k, f j) + f ⟨k + 1, hk⟩ := by
  have e : upTo n (k + 1) = insert ⟨k + 1, hk⟩ (upTo n k) := by
    ext j; simp only [upTo, Finset.mem_filter, Finset.mem_univ, true_and, Finset.mem_insert]
    constructor
    · intro h
      by_cases hj : j.val = k + 1
      · left; exact Fin.ext hj
      · right; omega
    · rintro (h | h)
      · subst h; exact le_refl _
      · omega
  have hn : (⟨k + 1, hk⟩ : Fin n) ∉ upTo n k := by
    simp only [upTo, Finset.mem_filter, Finset.mem_univ, true_and]; omega
  rw [e, Finset.sum_insert hn, add_comm]

theorem sum_upTo_last {n : ℕ} (f : Fin n → M) (k : ℕ) (hk : n ≤ k + 1) : ∑ j ∈ upTo n k, f j = ∑ j : Fin n, f j := by
  have e : upTo n k = Finset.univ := by
    ext j; simp only [upTo, Finset.mem_filter, Finset.mem_univ, true_and, iff_true]
    have := j.isLt; omega
  rw [e]

end Blocks

/-- A factor that is 0 or 1 leaves a sum of products or kills it, term by term or as a whole. -/
theorem sum_mul_sel {ι : Type*} [Fintype ι] (x a : ι → EReal) (h : EReal) (hh : h = 0 ∨ h = 1) :
    ∑ k, (x k * h) * a k = (∑ k, x k * a k) * h := by
  rcases hh with rfl | rfl
  · simp only [mul_zero, zero_mul, Finset.sum_const_zero]
  · simp only [mul_one]

/-- Eight terms added one after the other onto zero: their sum. -/
theorem chain8 {M : Type*} [AddCommMonoid M] (L : Fin 8 → M) :
    (((((((((0 : M) + L 0) + L 1) + L 2) + L 3) + L 4) + L 5) + L 6) + L 7) = ∑ l : Fin 8, L l := by
  rw [Fin.sum_univ_eight, zero_add]

end Cert.Lora.Sums

end
-- ==== Proof.Accum.lean ====
/-
  The two accumulators, point by point.

  Grid point t = (i, j, k) adds K-block k's contribution to both accumulators, starting from zero at k = 0. So after
  point t the dense accumulator holds, at (p, q), the sum over K-blocks 0 … k of the products of token row 1024·i + p
  with weight row 1024·j + q over the block's 512 columns, and the projection accumulator the same against the 128
  merged first-factor rows. After the last K-block these are the full sums over the 4096 input columns.
-/
import proofs.«168198_j15144054685780_1_alg».proof.Proof.Gen.KernelIdeal.Value
import proofs.«168198_j15144054685780_1_alg».proof.Proof.Pieces
import proofs.«168198_j15144054685780_1_alg».proof.Proof.Payloads
import proofs.«168198_j15144054685780_1_alg».proof.Proof.BlockReads
import proofs.«168198_j15144054685780_1_alg».proof.Proof.Sums
import proofs.«168198_j15144054685780_1_alg».proof.Proof.Layout

noncomputable section

open scoped BigOperators

namespace Cert.Lora.Accum

open Idealize.ShloMosaic Idealize.ShloMosaic.TcCoe Idealize.ShloMosaic.ValueIdx Idealize.SL.Sem
open Cert.KernelIdeal Cert.KernelIdeal.Gen Cert.Lora.Blocks Cert.Lora.Sums

variable (m : (ℓ : Loc nD τ sig) → Buf (Elt Ideal) ℓ)

/-- The tokens, the weight and the merged first factors as the region finds them. -/
abbrev xArr (c : Dev nD) : Vec Ideal S8192x4096 .f32 := V m c main_arg0
abbrev wArr (c : Dev nD) : Vec Ideal S4096x4096 .f32 := V m c main_arg1
abbrev aArr (c : Dev nD) : Vec Ideal S128x4096 .f32 := V m c main_v0

/-- The token, weight and merged-first-factor blocks staged at point t. -/
abbrev xblk (c : Dev nD) (t : Fin cfg0.N) : Vec Ideal S1024x512 .f32 := iblk m c 0 t
abbrev wblk (c : Dev nD) (t : Fin cfg0.N) : Vec Ideal S1024x512 .f32 := iblk m c 1 t
abbrev ablk (c : Dev nD) (t : Fin cfg0.N) : Vec Ideal S128x512 .f32 := iblk m c 2 t

/-- K-block k's contribution to the dense product at row p of token block i, column q of output block j. -/
def denseBlk (c : Dev nD) (i : Fin 8) (j : Fin 4) (p q : Fin 1024) (k : Fin 8) : EReal :=
  ∑ k' : Fin 512, xArr m c (ix2 (row8 i p) (kcol k k')) * wArr m c (ix2 (col4 j q) (kcol k k'))

/-- K-block k's contribution to the projection of row p of token block i on merged first-factor row cc. -/
def projBlk (c : Dev nD) (i : Fin 8) (p : Fin 1024) (cc : Fin 128) (k : Fin 8) : EReal :=
  ∑ k' : Fin 512, xArr m c (ix2 (row8 i p) (kcol k k')) * aArr m c (ix2 cc (kcol k k'))

/-- The products of the blocks staged at point t are that point's K-block's contribution. -/
theorem dense_step (c : Dev nD) (t : Fin cfg0.N) (p q : Fin 1024) :
    (∑ k' : Fin 512, xblk m c t (ix2 p k') * wblk m c t (ix2 q k') : EReal)
      = denseBlk m c (ti t) (tj t) p q (tk t) := by
  unfold denseBlk
  exact Finset.sum_congr rfl fun k' _ => congrArg₂ (fun a b : EReal => a * b) (iblk0_apply m c t p k') (iblk1_apply m c t q k')

theorem proj_step (c : Dev nD) (t : Fin cfg0.N) (p : Fin 1024) (cc : Fin 128) :
    (∑ k' : Fin 512, xblk m c t (ix2 p k') * ablk m c t (ix2 cc k') : EReal)
      = projBlk m c (ti t) p cc (tk t) := by
  unfold projBlk
  exact Finset.sum_congr rfl fun k' _ => congrArg₂ (fun a b : EReal => a * b) (iblk0_apply m c t p k') (iblk2_apply m c t cc k')

/-- What the accumulators hold after point n: the contributions of K-blocks 0 … n mod 8. -/
def Inv (c : Dev nD) (n : ℕ) (hn : n < cfg0.N) : Prop :=
  (∀ p q : Fin 1024, ((outsAt0 m c n hn).2.1 (ix2 p q) : EReal)
      = ∑ k ∈ upTo 8 (n % 8), denseBlk m c (ti ⟨n, hn⟩) (tj ⟨n, hn⟩) p q k)
  ∧ (∀ (p : Fin 1024) (cc : Fin 128), ((outsAt0 m c n hn).2.2 (ix2 p cc) : EReal)
      = ∑ k ∈ upTo 8 (n % 8), projBlk m c (ti ⟨n, hn⟩) p cc k)

/-- At the first K-block both accumulators are reset and then hold that block's contribution. -/
theorem inv_first (c : Dev nD) (n : ℕ) (hn : n < cfg0.N) (h0 : n % 8 = 0) : Inv m c n hn := by
  have h1 : ¬ n % 8 = 7 := by omega
  have htk : tk (⟨n, hn⟩ : Fin cfg0.N) = 0 := Fin.ext h0
  constructor
  · intro p q
    rw [outsAt0_A m c ⟨n, hn⟩ h0 h1]
    dsimp only
    refine (congrFun (Pieces.sout0_A_0_eq (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N))) (ix2 p q)).trans ?_
    refine (Body.pay4_apply _ _ _ p q).trans ?_
    rw [Body.pay1_apply, zero_add, h0, sum_upTo_zero]
    refine (dense_step m c ⟨n, hn⟩ p q).trans ?_
    rw [htk]
  · intro p cc
    rw [outsAt0_A m c ⟨n, hn⟩ h0 h1]
    dsimp only
    refine (congrFun (Pieces.sout0_A_1_eq (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N))) (ix2 p cc)).trans ?_
    refine (Body.pay5_apply _ _ _ p cc).trans ?_
    rw [Body.pay2_apply, zero_add, h0, sum_upTo_zero]
    refine (proj_step m c ⟨n, hn⟩ p cc).trans ?_
    rw [htk]

/-- At a later K-block both accumulators grow by that block's contribution. -/
theorem inv_next (c : Dev nD) (t : Fin cfg0.N) (h0 : ¬ t.val % 8 = 0)
    (ih : Inv m c (t.val - 1) (Nat.lt_of_le_of_lt (Nat.sub_le _ _) t.isLt)) : Inv m c t.val t.isLt := by
  have hN : t.val < 256 := lt256 t
  have hk : (t.val - 1) % 8 + 1 < 8 := by omega
  have hmod : t.val % 8 = (t.val - 1) % 8 + 1 := by omega
  have hti : ti ⟨t.val, t.isLt⟩ = ti ⟨t.val - 1, Nat.lt_of_le_of_lt (Nat.sub_le _ _) t.isLt⟩ :=
    Fin.ext (by show t.val / 32 = (t.val - 1) / 32; omega)
  have htj : tj ⟨t.val, t.isLt⟩ = tj ⟨t.val - 1, Nat.lt_of_le_of_lt (Nat.sub_le _ _) t.isLt⟩ :=
    Fin.ext (by show t.val / 8 % 4 = (t.val - 1) / 8 % 4; omega)
  have htk : tk t = ⟨(t.val - 1) % 8 + 1, hk⟩ := Fin.ext hmod
  obtain ⟨ihB, ihA⟩ := ih
  by_cases h1 : t.val % 8 = 7
  ·
    constructor
    · intro p q
      rw [outsAt0_C m c t h0 h1]
      dsimp only
      refine (congrFun (Pieces.sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
      refine (Body.pay4_apply _ _ _ p q).trans ?_
      refine (congrArg₂ (fun a b : EReal => a + b) (ihB p q) (dense_step m c t p q)).trans ?_
      rw [hmod, sum_upTo_succ _ _ hk, hti, htj, htk]
    · intro p cc
      rw [outsAt0_C m c t h0 h1]
      dsimp only
      refine (congrFun (Pieces.sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) (ix2 p cc)).trans ?_
      refine (Body.pay5_apply _ _ _ p cc).trans ?_
      refine (congrArg₂ (fun a b : EReal => a + b) (ihA p cc) (proj_step m c t p cc)).trans ?_
      rw [hmod, sum_upTo_succ _ _ hk, hti, htk]
  ·
    constructor
    · intro p q
      rw [outsAt0_B m c t h0 h1]
      dsimp only
      refine (congrFun (Pieces.sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
      refine (Body.pay4_apply _ _ _ p q).trans ?_
      refine (congrArg₂ (fun a b : EReal => a + b) (ihB p q) (dense_step m c t p q)).trans ?_
      rw [hmod, sum_upTo_succ _ _ hk, hti, htj, htk]
    · intro p cc
      rw [outsAt0_B m c t h0 h1]
      dsimp only
      refine (congrFun (Pieces.sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) (ix2 p cc)).trans ?_
      refine (Body.pay5_apply _ _ _ p cc).trans ?_
      refine (congrArg₂ (fun a b : EReal => a + b) (ihA p cc) (proj_step m c t p cc)).trans ?_
      rw [hmod, sum_upTo_succ _ _ hk, hti, htk]

/-- After every point the accumulators hold the contributions of the K-blocks so far. -/
theorem inv (c : Dev nD) : ∀ (n : ℕ) (hn : n < cfg0.N), Inv m c n hn
  | 0, hn => inv_first m c 0 hn (Nat.zero_mod _)
  | n + 1, hn => by
    by_cases h0 : (n + 1) % 8 = 0
    · exact inv_first m c (n + 1) hn h0
    · exact inv_next m c ⟨n + 1, hn⟩ h0 (inv c n (Nat.lt_of_succ_lt hn))

/-- After the last K-block: the full sums over the input columns. -/
theorem dense_full (c : Dev nD) (n : ℕ) (hn : n < cfg0.N) (h7 : n % 8 = 7) (p q : Fin 1024) :
    ((outsAt0 m c n hn).2.1 (ix2 p q) : EReal)
      = ∑ k : Fin 4096, xArr m c (ix2 (row8 (ti ⟨n, hn⟩) p) k) * wArr m c (ix2 (col4 (tj ⟨n, hn⟩) q) k) := by
  rw [(inv m c n hn).1 p q, h7, sum_upTo_last _ 7 (by norm_num),
    sum_split 8 512 4096 (by norm_num) fun k => xArr m c (ix2 (row8 (ti ⟨n, hn⟩) p) k) * wArr m c (ix2 (col4 (tj ⟨n, hn⟩) q) k)]
  rfl

theorem proj_full (c : Dev nD) (n : ℕ) (hn : n < cfg0.N) (h7 : n % 8 = 7) (p : Fin 1024) (cc : Fin 128) :
    ((outsAt0 m c n hn).2.2 (ix2 p cc) : EReal)
      = ∑ k : Fin 4096, xArr m c (ix2 (row8 (ti ⟨n, hn⟩) p) k) * aArr m c (ix2 cc k) := by
  rw [(inv m c n hn).2 p cc, h7, sum_upTo_last _ 7 (by norm_num),
    sum_split 8 512 4096 (by norm_num) fun k => xArr m c (ix2 (row8 (ti ⟨n, hn⟩) p) k) * aArr m c (ix2 cc k)]
  rfl

end Cert.Lora.Accum

end
-- ==== Proof.HostArrays.lean ====
/-
  The arrays the kernel region finds, which the host wrote before it, read at an index: the merged first factors
  (lane 16·l + r is row r of adapter l), the merged second factors (transposed, so lane 16·l + r at output column o is
  entry (o, r) of adapter l), the bias as one row, and the selection mask repeated 16 times along the merged axis.
-/
import proofs.«168198_j15144054685780_1_alg».proof.Proof.Gen.KernelIdeal.Frame
import proofs.«168198_j15144054685780_1_alg».proof.Proof.Spec
import proofs.«168198_j15144054685780_1_alg».proof.Proof.Layout
import Idealize.ShloMosaic.Lib.ValueIdx
import Idealize.ShloMosaic.Lib.ValueLayout
import Idealize.ShloMosaic.Lib.Pipeline.Value
import Idealize.ShloMosaic.Lib.StableHlo.Run

noncomputable section

namespace Cert.Lora.HostArrays

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The merged first factors: lane 16·l + r, column k, is entry (l, r, k) of the stacked first factors. -/
theorem V_v0_apply (c : Dev nD) (l : Fin 8) (r : Fin 16) (k : Fin 4096) :
    (V m c main_v0 : Vec Ideal S128x4096 .f32) (ix2 (lane l r) k)
      = (m ((c : Thread nD τ).loc main_arg3) : Vec Ideal S8x16x4096 .f32) (ix3 l r k) := by
  -- the array is the stacked factors with the first two axes merged
  have e : (V m c main_v0 : S128x4096.Idx → EReal)
      = shapeCast S128x4096 (m ((c : Thread nD τ).loc main_arg3) : Vec Ideal S8x16x4096 .f32) shapeCasts_S8x16x4096_S128x4096 := by
    dsimp only [Gen.V]
    simp only [Gen.hostOps0, Gen.hostOps0_1, Gen.hostOps0_2, List.flatten_cons, List.flatten_nil, List.append_nil, List.cons_append, List.nil_append]
    after_results
    rfl
  show (V m c main_v0 : S128x4096.Idx → EReal) (ix2 (lane l r) k) = _
  rw [e]
  -- same row-major position: (16·l + r)·4096 + k on both sides
  refine shapeCast_apply (s := S8x16x4096) (t := S128x4096) _ _ _ _ ?_
  rw [Shape.rowMajor_val_two, Shape.rowMajor_val_three]
  show (l.val * 16 + r.val) * 4096 + k.val = (lane l r).val * 4096 + k.val
  rw [lane_val]; omega

/-- The merged second factors: lane 16·l + r, output column o, is entry (0, l, o, r) of the stacked second factors. -/
theorem V_v3_apply (c : Dev nD) (l : Fin 8) (r : Fin 16) (o : Fin 4096) :
    (V m c main_v3 : Vec Ideal S128x4096 .f32) (ix2 (lane l r) o)
      = (m ((c : Thread nD τ).loc main_arg4) : Vec Ideal S1x8x4096x16 .f32) (ix4 0 l o r) := by
  -- drop the unit axis, swap the last two axes, merge the first two
  have e : (V m c main_v3 : S128x4096.Idx → EReal)
      = shapeCast S128x4096
          (transpose S8x16x4096 [0, 2, 1]
            (shapeCast S8x4096x16 (m ((c : Thread nD τ).loc main_arg4) : Vec Ideal S1x8x4096x16 .f32) shapeCasts_S1x8x4096x16_S8x4096x16)
            transposes_S8x4096x16_S8x16x4096_0_2_1)
          shapeCasts_S8x16x4096_S128x4096 := by
    dsimp only [Gen.V]
    simp only [Gen.hostOps0, Gen.hostOps0_1, Gen.hostOps0_2, List.flatten_cons, List.flatten_nil, List.append_nil, List.cons_append, List.nil_append]
    after_results
    rfl
  show (V m c main_v3 : S128x4096.Idx → EReal) (ix2 (lane l r) o) = _
  rw [e]
  -- the merge: position (16·l + r)·4096 + o is entry (l, r, o) of the transposed array
  rw [shapeCast_apply (s := S8x16x4096) (t := S128x4096) _ _ (ix2 (lane l r) o) (ix3 l r o) (by
    rw [Shape.rowMajor_val_two, Shape.rowMajor_val_three]
    show (l.val * 16 + r.val) * 4096 + o.val = (lane l r).val * 4096 + o.val
    rw [lane_val]; omega)]
  -- the swap: entry (l, r, o) of the transposed array is entry (l, o, r) before it
  rw [transpose_apply (s := S8x4096x16) (t := S8x16x4096) [0, 2, 1] _ _ (ix3 l r o) (ix3 l o r) (by
    intro b
    match b with
    | ⟨0, _⟩ => rfl
    | ⟨1, _⟩ => rfl
    | ⟨2, _⟩ => rfl)]
  -- the unit axis: position (l·4096 + o)·16 + r on both sides
  refine shapeCast_apply (s := S1x8x4096x16) (t := S8x4096x16) _ _ _ _ ?_
  rw [Shape.rowMajor_val_three, Shape.rowMajor_val_four]
  show (((0 : Fin 1).val * 8 + l.val) * 4096 + o.val) * 16 + r.val = (l.val * 4096 + o.val) * 16 + r.val
  simp

/-- The bias as a single row. -/
theorem V_v4_apply (c : Dev nD) (o : Fin 4096) :
    (V m c main_v4 : Vec Ideal S1x4096 .f32) (ix2 0 o) = (m ((c : Thread nD τ).loc main_arg2) : Vec Ideal S4096 .f32) (ix1 o) := by
  have e : (V m c main_v4 : S1x4096.Idx → EReal)
      = shapeCast S1x4096 (m ((c : Thread nD τ).loc main_arg2) : Vec Ideal S4096 .f32) shapeCasts_S4096_S1x4096 := by
    dsimp only [Gen.V]
    simp only [Gen.hostOps0, Gen.hostOps0_1, Gen.hostOps0_2, List.flatten_cons, List.flatten_nil, List.append_nil, List.cons_append, List.nil_append]
    after_results
    rfl
  show (V m c main_v4 : S1x4096.Idx → EReal) (ix2 0 o) = _
  rw [e]
  refine shapeCast_apply (s := S4096) (t := S1x4096) _ _ _ _ ?_
  rw [Shape.rowMajor_val_two, Shape.rowMajor_val_one]
  show o.val = (0 : Fin 1).val * 4096 + o.val
  simp

/-- The mask: token s at lane 16·l + r carries the selection weight of adapter l. -/
theorem V_v7_apply (c : Dev nD) (s : Fin 8192) (l : Fin 8) (r : Fin 16) :
    ((V m c main_v7 : Vec Ideal S8192x128 .f32) (ix2 s (lane l r)) : EReal)
      = Cert.Lora.sel (m ((c : Thread nD τ).loc main_arg5)) s l := by
  -- the one-hot table of the tokens' numbers against 0 … 7, repeated 16 times along a new last axis, the last two axes merged
  have e : (V m c main_v7 : S8192x128.Idx → EReal)
      = shapeCast S8192x128
          (broadcastInDim S8192x8x16 ![0, 1] bcast_S8192x8_S8192x8x16_0_1
            (uitofp (F := Ideal) .f32
              (cmpi .eq
                (broadcastInDim S8192x8 ![0, 1] bcast_S8192x1_S8192x8_0_1
                  (broadcastInDim S8192x1 ![0] bcast_S8192_S8192x1_0 (m ((c : Thread nD τ).loc main_arg5) : IVec S8192 32)))
                (broadcastInDim S8192x8 ![0, 1] bcast_S1x8_S8192x8_0_1 (iotaInDim S1x8 32 1)))))
          shapeCasts_S8192x8x16_S8192x128 := by
    dsimp only [Gen.V]
    simp only [Gen.hostOps0, Gen.hostOps0_1, Gen.hostOps0_2, List.flatten_cons, List.flatten_nil, List.append_nil, List.cons_append, List.nil_append]
    after_results
    rfl
  show (V m c main_v7 : S8192x128.Idx → EReal) (ix2 s (lane l r)) = _
  rw [e]
  -- the merge: position s·128 + 16·l + r is entry (s, l, r)
  rw [shapeCast_apply (s := S8192x8x16) (t := S8192x128) _ _ (ix2 s (lane l r)) (ix3 s l r) (by
    rw [Shape.rowMajor_val_two, Shape.rowMajor_val_three]
    show (s.val * 8 + l.val) * 16 + r.val = s.val * 128 + (lane l r).val
    rw [lane_val]; omega)]
  -- the repetition along the new axis forgets r
  rw [broadcastInDim_apply (s := S8192x8) (t := S8192x8x16) ![0, 1] _ _ (ix3 s l r) (ix2 s l) (by
    intro a
    match a with
    | ⟨0, _⟩ => rfl
    | ⟨1, _⟩ => rfl)]
  -- the token's number, repeated along the adapters
  have hA : broadcastInDim S8192x8 ![0, 1] bcast_S8192x1_S8192x8_0_1
      (broadcastInDim S8192x1 ![0] bcast_S8192_S8192x1_0 (m ((c : Thread nD τ).loc main_arg5) : IVec S8192 32)) (ix2 s l)
      = (m ((c : Thread nD τ).loc main_arg5) : IVec S8192 32) (ix1 s) := by
    rw [broadcastInDim_apply (s := S8192x1) (t := S8192x8) ![0, 1] _ _ (ix2 s l) (ix2 s 0) (by
      intro a
      match a with
      | ⟨0, _⟩ => rfl
      | ⟨1, _⟩ => rfl)]
    exact broadcastInDim_apply (s := S8192) (t := S8192x1) ![0] _ _ (ix2 s 0) (ix1 s) (by
      intro a
      match a with
      | ⟨0, _⟩ => rfl)
  -- the adapters' numbers 0 … 7, repeated along the tokens
  have hB : broadcastInDim S8192x8 ![0, 1] bcast_S1x8_S8192x8_0_1 (iotaInDim S1x8 32 1) (ix2 s l) = BitVec.ofNat 32 l.val := by
    rw [broadcastInDim_apply (s := S1x8) (t := S8192x8) ![0, 1] _ _ (ix2 s l) (ix2 0 l) (by
      intro a
      match a with
      | ⟨0, _⟩ => rfl
      | ⟨1, _⟩ => rfl)]
    rfl
  show (((IntOp.cmpi .eq _ _).toNat : ℝ) : EReal) = _
  rw [hA, hB]
  rfl

end Cert.Lora.HostArrays

end
-- ==== Proof.KernelValue.lean ====
/-
  The kernel's result array.

  At the last K-block of output tile (i, j) the body stores, at (p, q), the dense accumulator plus the bias plus twice
  the product of the masked projection accumulator with the merged second factors. With both accumulators full sums
  over the 4096 input columns, and the 128 merged lanes split as 8 adapters of 16 rows, this is the specified function
  at token 1024·i + p and output column 1024·j + q. The 32 output tiles cover the array, so the array ends holding the
  specified function of the arguments.
-/
import proofs.«168198_j15144054685780_1_alg».proof.Proof.Accum
import proofs.«168198_j15144054685780_1_alg».proof.Proof.HostArrays
import proofs.«168198_j15144054685780_1_alg».proof.Proof.Spec

noncomputable section

open scoped BigOperators

namespace Cert.Lora.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.Lora.Blocks Cert.Lora.Sums Cert.Lora.Accum Cert.Lora.HostArrays

variable (m : (ℓ : Loc nD τ sig) → Buf (Elt Ideal) ℓ) (ρ : Dev nD → PrngReg)

/-- The six arguments as launched. -/
abbrev a0 (c : Dev nD) : Vec Ideal S8192x4096 .f32 := m ((c : Thread nD τ).loc main_arg0)
abbrev a1 (c : Dev nD) : Vec Ideal S4096x4096 .f32 := m ((c : Thread nD τ).loc main_arg1)
abbrev a2 (c : Dev nD) : Vec Ideal S4096 .f32 := m ((c : Thread nD τ).loc main_arg2)
abbrev a3 (c : Dev nD) : Vec Ideal S8x16x4096 .f32 := m ((c : Thread nD τ).loc main_arg3)
abbrev a4 (c : Dev nD) : Vec Ideal S1x8x4096x16 .f32 := m ((c : Thread nD τ).loc main_arg4)
abbrev a5 (c : Dev nD) : Vec Ideal S8192 .i32 := m ((c : Thread nD τ).loc main_arg5)

/-- The specified function of the arguments as launched. -/
abbrev Gm (c : Dev nD) : Vec Ideal S8192x4096 .f32 := Cert.Lora.G (a0 m c) (a1 m c) (a2 m c) (a3 m c) (a4 m c) (a5 m c)

theorem xArr_eq (c : Dev nD) : xArr m c = a0 m c := V_main_arg0 m c
theorem wArr_eq (c : Dev nD) : wArr m c = a1 m c := V_main_arg1 m c

/-- What the body stores in the output block at the last K-block of a tile is the specified function there. -/
theorem out_apply (c : Dev nD) (t : Fin cfg0.N) (h0 : ¬ t.val % 8 = 0) (h1 : t.val % 8 = 7) (p q : Fin 1024) :
    ((out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 : Vec Ideal S1024x1024 .f32) (ix2 p q) : EReal)
      = Gm m c (ix2 (row8 (ti t) p) (col4 (tj t) q)) := by
  have eB : k0_pay4 (F := Ideal) (iblk m c 0 t) (iblk m c 1 t) (outsAt0 m c (t.val - 1) (Nat.lt_of_le_of_lt (Nat.sub_le _ _) t.isLt)).2.1
      = (outsAt0 m c t.val t.isLt).2.1 := by
    rw [outsAt0_C m c t h0 h1]
    dsimp only
    exact (Pieces.sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2).symm
  have eA : k0_pay5 (F := Ideal) (iblk m c 0 t) (iblk m c 2 t) (outsAt0 m c (t.val - 1) (Nat.lt_of_le_of_lt (Nat.sub_le _ _) t.isLt)).2.2
      = (outsAt0 m c t.val t.isLt).2.2 := by
    rw [outsAt0_C m c t h0 h1]
    dsimp only
    exact (Pieces.sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2).symm
  refine (congrFun (Pieces.out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
  rw [eB, eA]
  refine (Body.pay6_apply _ _ _ _ _ p q).trans ?_
  rw [show Gm m c (ix2 (row8 (ti t) p) (col4 (tj t) q)) = _ from
    G_apply (a0 m c) (a1 m c) (a2 m c) (a3 m c) (a4 m c) (a5 m c) (row8 (ti t) p) (col4 (tj t) q)]
  refine congrArg₂ (fun a b : EReal => a + b) (congrArg₂ (fun a b : EReal => a + b) ?_ ?_) (congrArg (fun z : EReal => two * z) ?_)
  · refine (dense_full m c t.val t.isLt h1 p q).trans ?_
    exact Finset.sum_congr rfl fun k _ =>
      congrArg₂ (fun a b : EReal => a * b) (congrFun (xArr_eq m c) _) (congrFun (wArr_eq m c) _)
  · exact (iblk5_apply m c t q).trans (V_v4_apply m c _)
  · refine (sum_split 8 16 128 (by norm_num) _).trans ?_
    refine Finset.sum_congr rfl fun l _ => Finset.sum_congr rfl fun r _ => ?_
    refine congrArg₂ (fun a b : EReal => a * b) (congrArg₂ (fun a b : EReal => a * b) ?_ ?_) ?_
    · refine (proj_full m c t.val t.isLt h1 p (lane l r)).trans ?_
      exact Finset.sum_congr rfl fun k _ =>
        congrArg₂ (fun a b : EReal => a * b) (congrFun (xArr_eq m c) _) (V_v0_apply m c l r k)
    · exact (iblk4_apply m c t p (lane l r)).trans (V_v7_apply m c _ l r)
    · exact (iblk3_apply m c t (lane l r) q).trans (V_v3_apply m c l r _)

/-- The output window's block index at point t is its tile (i, j). -/
theorem idx6 : ∀ t : Fin cfg0.N, win0_6.index t (0 : Fin 2) = t.val / 32 ∧ win0_6.index t (1 : Fin 2) = t.val / 8 % 4 :=
  (by decide +kernel : ∀ t : Fin grid0.N, _)

/-- Entry (p, q) of the tile of point t sits at token 1024·i + p, output column 1024·j + q. -/
theorem emb6 (t : Fin cfg0.N) (p q : Fin 1024) :
    ((cfg0.win 6).blk t).view.emb (ix2 p q) = ix2 (row8 (ti t) p) (col4 (tj t) q) := by
  obtain ⟨e0, e1⟩ := idx6 t
  funext a; apply Fin.ext
  match a with
  | ⟨0, _⟩ => show win0_6.index t (0 : Fin 2) * 1024 + 1 * p.val = 1024 * (t.val / 32) + p.val; omega
  | ⟨1, _⟩ => show win0_6.index t (1 : Fin 2) * 1024 + 1 * q.val = 1024 * (t.val / 8 % 4) + q.val; omega

/-- What a point that writes its tile back writes is that tile of the specified function. -/
theorem flushed_eq (c : Dev nD) (t : Fin cfg0.N) (hf : (cfg0.win 6).flush t = true) :
    (dats m 0 c).flushed 6 t = ((cfg0.win 6).blk t).view.read (Elt Ideal) (Gm m c) := by
  have h1 : t.val % 8 = 7 := (flush0_6 t).mp hf
  have h0 : ¬ t.val % 8 = 0 := by omega
  rw [Value.flushed6_C m c t h0 h1]
  funext y
  obtain ⟨p, q, rfl⟩ : ∃ (p q : Fin 1024), y = ix2 p q := ⟨y 0, y 1, eq_ix2 y⟩
  show ((out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 : Vec Ideal S1024x1024 .f32) (ix2 p q) : EReal)
      = Gm m c (((cfg0.win 6).blk t).view.emb (ix2 p q))
  rw [emb6]
  exact out_apply m c t h0 h1 p q

/-- An index is in point t's tile iff each coordinate is in the tile's range on its axis. -/
theorem mem_blk6 (t : Fin cfg0.N) (i : S8192x4096.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v8).slice (win0_6.rect t)).set ↔ _
  rw [View.set_slice_whole, Rect.mem_set_unit]
  exact Iff.rfl

/-- Every index of the array lies in the tile some point writes back: the last K-block's point of its tile. -/
theorem cover (i : S8192x4096.Idx) :
    ∃ t : Fin cfg0.N, (cfg0.win 6).flush t = true ∧ i ∈ ((cfg0.win 6).blk t).view.set := by
  have hi0 : (i 0).val < 8192 := (i 0).isLt
  have hi1 : (i 1).val < 4096 := (i 1).isLt
  obtain ⟨a, ha⟩ : ∃ a, a = (i 0).val / 1024 := ⟨_, rfl⟩
  obtain ⟨b, hb⟩ : ∃ b, b = (i 1).val / 1024 := ⟨_, rfl⟩
  have hn : (a * 4 + b) * 8 + 7 < cfg0.N := by rw [show cfg0.N = 256 from N_0]; omega
  refine ⟨⟨(a * 4 + b) * 8 + 7, hn⟩, (flush0_6 _).mpr (by show ((a * 4 + b) * 8 + 7) % 8 = 7; omega), ?_⟩
  rw [mem_blk6]
  obtain ⟨e0, e1⟩ := idx6 ⟨(a * 4 + b) * 8 + 7, hn⟩
  have e0' : win0_6.index ⟨(a * 4 + b) * 8 + 7, hn⟩ (0 : Fin 2) = a := by rw [e0]; show ((a * 4 + b) * 8 + 7) / 32 = a; omega
  have e1' : win0_6.index ⟨(a * 4 + b) * 8 + 7, hn⟩ (1 : Fin 2) = b := by rw [e1]; show ((a * 4 + b) * 8 + 7) / 8 % 4 = b; omega
  intro ax
  match ax with
  | ⟨0, _⟩ =>
    show win0_6.index ⟨(a * 4 + b) * 8 + 7, hn⟩ (0 : Fin 2) * 1024 ≤ (i 0).val ∧ (i 0).val < win0_6.index ⟨(a * 4 + b) * 8 + 7, hn⟩ (0 : Fin 2) * 1024 + 1024
    rw [e0']; omega
  | ⟨1, _⟩ =>
    show win0_6.index ⟨(a * 4 + b) * 8 + 7, hn⟩ (1 : Fin 2) * 1024 ≤ (i 1).val ∧ (i 1).val < win0_6.index ⟨(a * 4 + b) * 8 + 7, hn⟩ (1 : Fin 2) * 1024 + 1024
    rw [e1']; omega

/-- The result array after the run is the specified function of the arguments. -/
theorem final (c : Dev nD) : (dats m 0 c).arrAt 6 cfg0.N = Gm m c :=
  (dats m 0 c).arrAt_eq_of_cover 6 (Gm m c) (fun t hf => flushed_eq m c t hf) cover

/-- The kernel's run: the result at the specified function of the arguments, the arguments unchanged. -/
theorem run : θ_run defs (onTc (τ := τ) (main (F := Ideal))) ⟨m, fun _ => 0, ρ⟩ fun r => ∀ c : Dev nD,
      r.2.mem ((c : Thread nD τ).loc main_v8) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.Lora.KernelValue

end
-- ==== Proof.RefValue.lean ====
/-
  The reference computes the specified function: its dense product plus bias, plus twice the eight adapters'
  corrections added one after the other, each over tokens masked before the projection.

  Each adapter's stanza is read one operation at a time down to the arguments: the mask is the converted comparison
  of the token's number with the adapter's, the two factors are slices of the stacked arrays read transposed, and the
  two products are plain sums. Since the mask is 0 or 1 it leaves the sum over the input columns as a factor; the
  eight corrections, added one after the other onto zero, are the sum over the adapters.
-/
import proofs.«168198_j15144054685780_1_alg».proof.Proof.Gen.ReferenceIdeal.Read
import proofs.«168198_j15144054685780_1_alg».proof.Proof.Spec
import proofs.«168198_j15144054685780_1_alg».proof.Proof.Sums
import proofs.«168198_j15144054685780_1_alg».proof.Proof.LibRowBlock

noncomputable section

open scoped BigOperators

namespace Cert.Lora.Ref

open Idealize.ShloMosaic Idealize.ShloMosaic.ValueIdx
open Cert.ReferenceIdeal Cert.ReferenceIdeal.Read

/-- One adapter's stanza, abstractly: a masked row block M, the adapter's two factors read transposed, the
    projection P = M · At and the correction L = P · Bt. The 0-or-1 mask leaves the sum over k as a factor. -/
private theorem stanza (l : Fin 8) (x0 : Vec Ideal S8192x4096 .f32) (x3 : Vec Ideal S8x16x4096 .f32)
    (x4 : Vec Ideal S1x8x4096x16 .f32) (x5 : Vec Ideal S8192 .i32)
    (M : S8192x4096.Idx → EReal) (At : S4096x16.Idx → EReal) (Bt : S16x4096.Idx → EReal)
    (P : S8192x16.Idx → EReal) (L : S8192x4096.Idx → EReal)
    (hM : ∀ (s : Fin 8192) (k : Fin 4096), M (ix2 s k) = x0 (ix2 s k) * sel x5 s l)
    (hA : ∀ (k : Fin 4096) (r : Fin 16), At (ix2 k r) = x3 (ix3 l r k))
    (hB : ∀ (r : Fin 16) (o : Fin 4096), Bt (ix2 r o) = x4 (ix4 0 l o r))
    (hP : ∀ (s : Fin 8192) (r : Fin 16), P (ix2 s r) = ∑ k : Fin 4096, M (ix2 s k) * At (ix2 k r))
    (hL : ∀ (s : Fin 8192) (o : Fin 4096), L (ix2 s o) = ∑ r : Fin 16, P (ix2 s r) * Bt (ix2 r o))
    (s : Fin 8192) (o : Fin 4096) :
    L (ix2 s o) = ∑ r : Fin 16, (proj x0 x3 s l r * sel x5 s l) * x4 (ix4 0 l o r) := by
  rw [hL]
  refine Finset.sum_congr rfl fun r _ => ?_
  rw [hP, hB]
  congr 1
  unfold proj
  rw [← Sums.sum_mul_sel _ _ _ (sel_zero_or_one x5 s l)]
  refine Finset.sum_congr rfl fun k _ => ?_
  rw [hM, hA]

/-- Adapter 0's correction: tokens masked by "number is 0", projected on the adapter's first factor, then through its second. -/
private theorem L0_apply (x0 : Vec Ideal S8192x4096 .f32) (x3 : Vec Ideal S8x16x4096 .f32)
    (x4 : Vec Ideal S1x8x4096x16 .f32) (x5 : Vec Ideal S8192 .i32) (s : Fin 8192) (o : Fin 4096) :
    val_main_v20 (F := Ideal) x0 x3 x4 x5 (ix2 s o) = ∑ r : Fin 16, (proj x0 x3 s 0 r * sel x5 s 0) * x4 (ix4 0 0 o r) := by
  refine stanza 0 x0 x3 x4 x5 (val_main_v12 (F := Ideal) x0 x5) (val_main_v15 (F := Ideal) x3) (val_main_v19 (F := Ideal) x4)
    (val_main_v16 (F := Ideal) x0 x3 x5) (val_main_v20 (F := Ideal) x0 x3 x4 x5) ?_ ?_ ?_ ?_ ?_ s o
  · -- the mask: the token's number compared with 0, converted, spread along the row
    intro s k
    rw [val_main_v12_apply, val_main_v11_apply, val_main_v10_apply, val_main_v9_apply, val_main_v8_apply, val_main_v7_apply, val_main_c_apply]
    have e : idx_main_v10 (idx_main_v11 (ix2 s k)) = ix1 s := funext fun a => Fin.ext (by match a with | ⟨0, _⟩ => rfl)
    rw [e]
    rfl
  · -- the first factor: slice 0 of a, as a 16 × 4096 matrix, transposed
    intro k r
    rw [val_main_v15_apply, val_main_v14_apply, val_main_v13_apply]
    congr 1
    funext a
    apply Fin.ext
    have hk := k.isLt
    have hr := r.isLt
    match a with
    | ⟨0, _⟩ => rfl
    | ⟨1, _⟩ => show (r.val * 4096 + k.val) / 4096 % 16 = r.val; omega
    | ⟨2, _⟩ => show (r.val * 4096 + k.val) % 4096 = k.val; omega
  · -- the second factor: slice 0 of b's three inner axes, as a 4096 × 16 matrix, transposed
    intro r o
    rw [val_main_v19_apply, val_main_v18_apply, val_main_v17_apply, val_main_v5_apply]
    congr 1
    funext a
    apply Fin.ext
    have ho := o.isLt
    have hr := r.isLt
    match a with
    | ⟨0, _⟩ => rfl
    | ⟨1, _⟩ => show (((0 + 0) * 4096 + (o.val * 16 + r.val) / 16 % 4096) * 16 + (o.val * 16 + r.val) % 16) / 65536 % 8 = 0; omega
    | ⟨2, _⟩ => show (((0 + 0) * 4096 + (o.val * 16 + r.val) / 16 % 4096) * 16 + (o.val * 16 + r.val) % 16) / 16 % 4096 = o.val; omega
    | ⟨3, _⟩ => show (((0 + 0) * 4096 + (o.val * 16 + r.val) / 16 % 4096) * 16 + (o.val * 16 + r.val) % 16) % 16 = r.val; omega
  · -- the projection, a plain product over the 4096 input columns
    intro s r
    rw [val_main_v16_apply]
    refine Finset.sum_congr rfl fun k _ => ?_
    have el : lidx_main_v16 (ix2 s r) k = ix2 s k := by funext a; match a with | ⟨0, _⟩ => rfl | ⟨1, _⟩ => rfl
    have er : ridx_main_v16 (ix2 s r) k = ix2 k r := by funext a; match a with | ⟨0, _⟩ => rfl | ⟨1, _⟩ => rfl
    rw [el, er]
  · -- the correction, a plain product over the 16 rank columns
    intro s o
    rw [val_main_v20_apply]
    refine Finset.sum_congr rfl fun r _ => ?_
    have el : lidx_main_v20 (ix2 s o) r = ix2 s r := by funext a; match a with | ⟨0, _⟩ => rfl | ⟨1, _⟩ => rfl
    have er : ridx_main_v20 (ix2 s o) r = ix2 r o := by funext a; match a with | ⟨0, _⟩ => rfl | ⟨1, _⟩ => rfl
    rw [el, er]

/-- Adapter 1's correction: tokens masked by "number is 1", projected on the adapter's first factor, then through its second. -/
private theorem L1_apply (x0 : Vec Ideal S8192x4096 .f32) (x3 : Vec Ideal S8x16x4096 .f32)
    (x4 : Vec Ideal S1x8x4096x16 .f32) (x5 : Vec Ideal S8192 .i32) (s : Fin 8192) (o : Fin 4096) :
    val_main_v35 (F := Ideal) x0 x3 x4 x5 (ix2 s o) = ∑ r : Fin 16, (proj x0 x3 s 1 r * sel x5 s 1) * x4 (ix4 0 1 o r) := by
  refine stanza 1 x0 x3 x4 x5 (val_main_v27 (F := Ideal) x0 x5) (val_main_v30 (F := Ideal) x3) (val_main_v34 (F := Ideal) x4)
    (val_main_v31 (F := Ideal) x0 x3 x5) (val_main_v35 (F := Ideal) x0 x3 x4 x5) ?_ ?_ ?_ ?_ ?_ s o
  · -- the mask: the token's number compared with 1, converted, spread along the row
    intro s k
    rw [val_main_v27_apply, val_main_v26_apply, val_main_v25_apply, val_main_v24_apply, val_main_v23_apply, val_main_v22_apply, val_main_c_0_apply]
    have e : idx_main_v25 (idx_main_v26 (ix2 s k)) = ix1 s := funext fun a => Fin.ext (by match a with | ⟨0, _⟩ => rfl)
    rw [e]
    rfl
  · -- the first factor: slice 1 of a, as a 16 × 4096 matrix, transposed
    intro k r
    rw [val_main_v30_apply, val_main_v29_apply, val_main_v28_apply]
    congr 1
    funext a
    apply Fin.ext
    have hk := k.isLt
    have hr := r.isLt
    match a with
    | ⟨0, _⟩ => rfl
    | ⟨1, _⟩ => show (r.val * 4096 + k.val) / 4096 % 16 = r.val; omega
    | ⟨2, _⟩ => show (r.val * 4096 + k.val) % 4096 = k.val; omega
  · -- the second factor: slice 1 of b's three inner axes, as a 4096 × 16 matrix, transposed
    intro r o
    rw [val_main_v34_apply, val_main_v33_apply, val_main_v32_apply, val_main_v5_apply]
    congr 1
    funext a
    apply Fin.ext
    have ho := o.isLt
    have hr := r.isLt
    match a with
    | ⟨0, _⟩ => rfl
    | ⟨1, _⟩ => show (((1 + 0) * 4096 + (o.val * 16 + r.val) / 16 % 4096) * 16 + (o.val * 16 + r.val) % 16) / 65536 % 8 = 1; omega
    | ⟨2, _⟩ => show (((1 + 0) * 4096 + (o.val * 16 + r.val) / 16 % 4096) * 16 + (o.val * 16 + r.val) % 16) / 16 % 4096 = o.val; omega
    | ⟨3, _⟩ => show (((1 + 0) * 4096 + (o.val * 16 + r.val) / 16 % 4096) * 16 + (o.val * 16 + r.val) % 16) % 16 = r.val; omega
  · -- the projection, a plain product over the 4096 input columns
    intro s r
    rw [val_main_v31_apply]
    refine Finset.sum_congr rfl fun k _ => ?_
    have el : lidx_main_v31 (ix2 s r) k = ix2 s k := by funext a; match a with | ⟨0, _⟩ => rfl | ⟨1, _⟩ => rfl
    have er : ridx_main_v31 (ix2 s r) k = ix2 k r := by funext a; match a with | ⟨0, _⟩ => rfl | ⟨1, _⟩ => rfl
    rw [el, er]
  · -- the correction, a plain product over the 16 rank columns
    intro s o
    rw [val_main_v35_apply]
    refine Finset.sum_congr rfl fun r _ => ?_
    have el : lidx_main_v35 (ix2 s o) r = ix2 s r := by funext a; match a with | ⟨0, _⟩ => rfl | ⟨1, _⟩ => rfl
    have er : ridx_main_v35 (ix2 s o) r = ix2 r o := by funext a; match a with | ⟨0, _⟩ => rfl | ⟨1, _⟩ => rfl
    rw [el, er]

/-- Adapter 2's correction: tokens masked by "number is 2", projected on the adapter's first factor, then through its second. -/
private theorem L2_apply (x0 : Vec Ideal S8192x4096 .f32) (x3 : Vec Ideal S8x16x4096 .f32)
    (x4 : Vec Ideal S1x8x4096x16 .f32) (x5 : Vec Ideal S8192 .i32) (s : Fin 8192) (o : Fin 4096) :
    val_main_v50 (F := Ideal) x0 x3 x4 x5 (ix2 s o) = ∑ r : Fin 16, (proj x0 x3 s 2 r * sel x5 s 2) * x4 (ix4 0 2 o r) := by
  refine stanza 2 x0 x3 x4 x5 (val_main_v42 (F := Ideal) x0 x5) (val_main_v45 (F := Ideal) x3) (val_main_v49 (F := Ideal) x4)
    (val_main_v46 (F := Ideal) x0 x3 x5) (val_main_v50 (F := Ideal) x0 x3 x4 x5) ?_ ?_ ?_ ?_ ?_ s o
  · -- the mask: the token's number compared with 2, converted, spread along the row
    intro s k
    rw [val_main_v42_apply, val_main_v41_apply, val_main_v40_apply, val_main_v39_apply, val_main_v38_apply, val_main_v37_apply, val_main_c_1_apply]
    have e : idx_main_v40 (idx_main_v41 (ix2 s k)) = ix1 s := funext fun a => Fin.ext (by match a with | ⟨0, _⟩ => rfl)
    rw [e]
    rfl
  · -- the first factor: slice 2 of a, as a 16 × 4096 matrix, transposed
    intro k r
    rw [val_main_v45_apply, val_main_v44_apply, val_main_v43_apply]
    congr 1
    funext a
    apply Fin.ext
    have hk := k.isLt
    have hr := r.isLt
    match a with
    | ⟨0, _⟩ => rfl
    | ⟨1, _⟩ => show (r.val * 4096 + k.val) / 4096 % 16 = r.val; omega
    | ⟨2, _⟩ => show (r.val * 4096 + k.val) % 4096 = k.val; omega
  · -- the second factor: slice 2 of b's three inner axes, as a 4096 × 16 matrix, transposed
    intro r o
    rw [val_main_v49_apply, val_main_v48_apply, val_main_v47_apply, val_main_v5_apply]
    congr 1
    funext a
    apply Fin.ext
    have ho := o.isLt
    have hr := r.isLt
    match a with
    | ⟨0, _⟩ => rfl
    | ⟨1, _⟩ => show (((2 + 0) * 4096 + (o.val * 16 + r.val) / 16 % 4096) * 16 + (o.val * 16 + r.val) % 16) / 65536 % 8 = 2; omega
    | ⟨2, _⟩ => show (((2 + 0) * 4096 + (o.val * 16 + r.val) / 16 % 4096) * 16 + (o.val * 16 + r.val) % 16) / 16 % 4096 = o.val; omega
    | ⟨3, _⟩ => show (((2 + 0) * 4096 + (o.val * 16 + r.val) / 16 % 4096) * 16 + (o.val * 16 + r.val) % 16) % 16 = r.val; omega
  · -- the projection, a plain product over the 4096 input columns
    intro s r
    rw [val_main_v46_apply]
    refine Finset.sum_congr rfl fun k _ => ?_
    have el : lidx_main_v46 (ix2 s r) k = ix2 s k := by funext a; match a with | ⟨0, _⟩ => rfl | ⟨1, _⟩ => rfl
    have er : ridx_main_v46 (ix2 s r) k = ix2 k r := by funext a; match a with | ⟨0, _⟩ => rfl | ⟨1, _⟩ => rfl
    rw [el, er]
  · -- the correction, a plain product over the 16 rank columns
    intro s o
    rw [val_main_v50_apply]
    refine Finset.sum_congr rfl fun r _ => ?_
    have el : lidx_main_v50 (ix2 s o) r = ix2 s r := by funext a; match a with | ⟨0, _⟩ => rfl | ⟨1, _⟩ => rfl
    have er : ridx_main_v50 (ix2 s o) r = ix2 r o := by funext a; match a with | ⟨0, _⟩ => rfl | ⟨1, _⟩ => rfl
    rw [el, er]

/-- Adapter 3's correction: tokens masked by "number is 3", projected on the adapter's first factor, then through its second. -/
private theorem L3_apply (x0 : Vec Ideal S8192x4096 .f32) (x3 : Vec Ideal S8x16x4096 .f32)
    (x4 : Vec Ideal S1x8x4096x16 .f32) (x5 : Vec Ideal S8192 .i32) (s : Fin 8192) (o : Fin 4096) :
    val_main_v65 (F := Ideal) x0 x3 x4 x5 (ix2 s o) = ∑ r : Fin 16, (proj x0 x3 s 3 r * sel x5 s 3) * x4 (ix4 0 3 o r) := by
  refine stanza 3 x0 x3 x4 x5 (val_main_v57 (F := Ideal) x0 x5) (val_main_v60 (F := Ideal) x3) (val_main_v64 (F := Ideal) x4)
    (val_main_v61 (F := Ideal) x0 x3 x5) (val_main_v65 (F := Ideal) x0 x3 x4 x5) ?_ ?_ ?_ ?_ ?_ s o
  · -- the mask: the token's number compared with 3, converted, spread along the row
    intro s k
    rw [val_main_v57_apply, val_main_v56_apply, val_main_v55_apply, val_main_v54_apply, val_main_v53_apply, val_main_v52_apply, val_main_c_2_apply]
    have e : idx_main_v55 (idx_main_v56 (ix2 s k)) = ix1 s := funext fun a => Fin.ext (by match a with | ⟨0, _⟩ => rfl)
    rw [e]
    rfl
  · -- the first factor: slice 3 of a, as a 16 × 4096 matrix, transposed
    intro k r
    rw [val_main_v60_apply, val_main_v59_apply, val_main_v58_apply]
    congr 1
    funext a
    apply Fin.ext
    have hk := k.isLt
    have hr := r.isLt
    match a with
    | ⟨0, _⟩ => rfl
    | ⟨1, _⟩ => show (r.val * 4096 + k.val) / 4096 % 16 = r.val; omega
    | ⟨2, _⟩ => show (r.val * 4096 + k.val) % 4096 = k.val; omega
  · -- the second factor: slice 3 of b's three inner axes, as a 4096 × 16 matrix, transposed
    intro r o
    rw [val_main_v64_apply, val_main_v63_apply, val_main_v62_apply, val_main_v5_apply]
    congr 1
    funext a
    apply Fin.ext
    have ho := o.isLt
    have hr := r.isLt
    match a with
    | ⟨0, _⟩ => rfl
    | ⟨1, _⟩ => show (((3 + 0) * 4096 + (o.val * 16 + r.val) / 16 % 4096) * 16 + (o.val * 16 + r.val) % 16) / 65536 % 8 = 3; omega
    | ⟨2, _⟩ => show (((3 + 0) * 4096 + (o.val * 16 + r.val) / 16 % 4096) * 16 + (o.val * 16 + r.val) % 16) / 16 % 4096 = o.val; omega
    | ⟨3, _⟩ => show (((3 + 0) * 4096 + (o.val * 16 + r.val) / 16 % 4096) * 16 + (o.val * 16 + r.val) % 16) % 16 = r.val; omega
  · -- the projection, a plain product over the 4096 input columns
    intro s r
    rw [val_main_v61_apply]
    refine Finset.sum_congr rfl fun k _ => ?_
    have el : lidx_main_v61 (ix2 s r) k = ix2 s k := by funext a; match a with | ⟨0, _⟩ => rfl | ⟨1, _⟩ => rfl
    have er : ridx_main_v61 (ix2 s r) k = ix2 k r := by funext a; match a with | ⟨0, _⟩ => rfl | ⟨1, _⟩ => rfl
    rw [el, er]
  · -- the correction, a plain product over the 16 rank columns
    intro s o
    rw [val_main_v65_apply]
    refine Finset.sum_congr rfl fun r _ => ?_
    have el : lidx_main_v65 (ix2 s o) r = ix2 s r := by funext a; match a with | ⟨0, _⟩ => rfl | ⟨1, _⟩ => rfl
    have er : ridx_main_v65 (ix2 s o) r = ix2 r o := by funext a; match a with | ⟨0, _⟩ => rfl | ⟨1, _⟩ => rfl
    rw [el, er]

/-- Adapter 4's correction: tokens masked by "number is 4", projected on the adapter's first factor, then through its second. -/
private theorem L4_apply (x0 : Vec Ideal S8192x4096 .f32) (x3 : Vec Ideal S8x16x4096 .f32)
    (x4 : Vec Ideal S1x8x4096x16 .f32) (x5 : Vec Ideal S8192 .i32) (s : Fin 8192) (o : Fin 4096) :
    val_main_v80 (F := Ideal) x0 x3 x4 x5 (ix2 s o) = ∑ r : Fin 16, (proj x0 x3 s 4 r * sel x5 s 4) * x4 (ix4 0 4 o r) := by
  refine stanza 4 x0 x3 x4 x5 (val_main_v72 (F := Ideal) x0 x5) (val_main_v75 (F := Ideal) x3) (val_main_v79 (F := Ideal) x4)
    (val_main_v76 (F := Ideal) x0 x3 x5) (val_main_v80 (F := Ideal) x0 x3 x4 x5) ?_ ?_ ?_ ?_ ?_ s o
  · -- the mask: the token's number compared with 4, converted, spread along the row
    intro s k
    rw [val_main_v72_apply, val_main_v71_apply, val_main_v70_apply, val_main_v69_apply, val_main_v68_apply, val_main_v67_apply, val_main_c_3_apply]
    have e : idx_main_v70 (idx_main_v71 (ix2 s k)) = ix1 s := funext fun a => Fin.ext (by match a with | ⟨0, _⟩ => rfl)
    rw [e]
    rfl
  · -- the first factor: slice 4 of a, as a 16 × 4096 matrix, transposed
    intro k r
    rw [val_main_v75_apply, val_main_v74_apply, val_main_v73_apply]
    congr 1
    funext a
    apply Fin.ext
    have hk := k.isLt
    have hr := r.isLt
    match a with
    | ⟨0, _⟩ => rfl
    | ⟨1, _⟩ => show (r.val * 4096 + k.val) / 4096 % 16 = r.val; omega
    | ⟨2, _⟩ => show (r.val * 4096 + k.val) % 4096 = k.val; omega
  · -- the second factor: slice 4 of b's three inner axes, as a 4096 × 16 matrix, transposed
    intro r o
    rw [val_main_v79_apply, val_main_v78_apply, val_main_v77_apply, val_main_v5_apply]
    congr 1
    funext a
    apply Fin.ext
    have ho := o.isLt
    have hr := r.isLt
    match a with
    | ⟨0, _⟩ => rfl
    | ⟨1, _⟩ => show (((4 + 0) * 4096 + (o.val * 16 + r.val) / 16 % 4096) * 16 + (o.val * 16 + r.val) % 16) / 65536 % 8 = 4; omega
    | ⟨2, _⟩ => show (((4 + 0) * 4096 + (o.val * 16 + r.val) / 16 % 4096) * 16 + (o.val * 16 + r.val) % 16) / 16 % 4096 = o.val; omega
    | ⟨3, _⟩ => show (((4 + 0) * 4096 + (o.val * 16 + r.val) / 16 % 4096) * 16 + (o.val * 16 + r.val) % 16) % 16 = r.val; omega
  · -- the projection, a plain product over the 4096 input columns
    intro s r
    rw [val_main_v76_apply]
    refine Finset.sum_congr rfl fun k _ => ?_
    have el : lidx_main_v76 (ix2 s r) k = ix2 s k := by funext a; match a with | ⟨0, _⟩ => rfl | ⟨1, _⟩ => rfl
    have er : ridx_main_v76 (ix2 s r) k = ix2 k r := by funext a; match a with | ⟨0, _⟩ => rfl | ⟨1, _⟩ => rfl
    rw [el, er]
  · -- the correction, a plain product over the 16 rank columns
    intro s o
    rw [val_main_v80_apply]
    refine Finset.sum_congr rfl fun r _ => ?_
    have el : lidx_main_v80 (ix2 s o) r = ix2 s r := by funext a; match a with | ⟨0, _⟩ => rfl | ⟨1, _⟩ => rfl
    have er : ridx_main_v80 (ix2 s o) r = ix2 r o := by funext a; match a with | ⟨0, _⟩ => rfl | ⟨1, _⟩ => rfl
    rw [el, er]

/-- Adapter 5's correction: tokens masked by "number is 5", projected on the adapter's first factor, then through its second. -/
private theorem L5_apply (x0 : Vec Ideal S8192x4096 .f32) (x3 : Vec Ideal S8x16x4096 .f32)
    (x4 : Vec Ideal S1x8x4096x16 .f32) (x5 : Vec Ideal S8192 .i32) (s : Fin 8192) (o : Fin 4096) :
    val_main_v95 (F := Ideal) x0 x3 x4 x5 (ix2 s o) = ∑ r : Fin 16, (proj x0 x3 s 5 r * sel x5 s 5) * x4 (ix4 0 5 o r) := by
  refine stanza 5 x0 x3 x4 x5 (val_main_v87 (F := Ideal) x0 x5) (val_main_v90 (F := Ideal) x3) (val_main_v94 (F := Ideal) x4)
    (val_main_v91 (F := Ideal) x0 x3 x5) (val_main_v95 (F := Ideal) x0 x3 x4 x5) ?_ ?_ ?_ ?_ ?_ s o
  · -- the mask: the token's number compared with 5, converted, spread along the row
    intro s k
    rw [val_main_v87_apply, val_main_v86_apply, val_main_v85_apply, val_main_v84_apply, val_main_v83_apply, val_main_v82_apply, val_main_c_4_apply]
    have e : idx_main_v85 (idx_main_v86 (ix2 s k)) = ix1 s := funext fun a => Fin.ext (by match a with | ⟨0, _⟩ => rfl)
    rw [e]
    rfl
  · -- the first factor: slice 5 of a, as a 16 × 4096 matrix, transposed
    intro k r
    rw [val_main_v90_apply, val_main_v89_apply, val_main_v88_apply]
    congr 1
    funext a
    apply Fin.ext
    have hk := k.isLt
    have hr := r.isLt
    match a with
    | ⟨0, _⟩ => rfl
    | ⟨1, _⟩ => show (r.val * 4096 + k.val) / 4096 % 16 = r.val; omega
    | ⟨2, _⟩ => show (r.val * 4096 + k.val) % 4096 = k.val; omega
  · -- the second factor: slice 5 of b's three inner axes, as a 4096 × 16 matrix, transposed
    intro r o
    rw [val_main_v94_apply, val_main_v93_apply, val_main_v92_apply, val_main_v5_apply]
    congr 1
    funext a
    apply Fin.ext
    have ho := o.isLt
    have hr := r.isLt
    match a with
    | ⟨0, _⟩ => rfl
    | ⟨1, _⟩ => show (((5 + 0) * 4096 + (o.val * 16 + r.val) / 16 % 4096) * 16 + (o.val * 16 + r.val) % 16) / 65536 % 8 = 5; omega
    | ⟨2, _⟩ => show (((5 + 0) * 4096 + (o.val * 16 + r.val) / 16 % 4096) * 16 + (o.val * 16 + r.val) % 16) / 16 % 4096 = o.val; omega
    | ⟨3, _⟩ => show (((5 + 0) * 4096 + (o.val * 16 + r.val) / 16 % 4096) * 16 + (o.val * 16 + r.val) % 16) % 16 = r.val; omega
  · -- the projection, a plain product over the 4096 input columns
    intro s r
    rw [val_main_v91_apply]
    refine Finset.sum_congr rfl fun k _ => ?_
    have el : lidx_main_v91 (ix2 s r) k = ix2 s k := by funext a; match a with | ⟨0, _⟩ => rfl | ⟨1, _⟩ => rfl
    have er : ridx_main_v91 (ix2 s r) k = ix2 k r := by funext a; match a with | ⟨0, _⟩ => rfl | ⟨1, _⟩ => rfl
    rw [el, er]
  · -- the correction, a plain product over the 16 rank columns
    intro s o
    rw [val_main_v95_apply]
    refine Finset.sum_congr rfl fun r _ => ?_
    have el : lidx_main_v95 (ix2 s o) r = ix2 s r := by funext a; match a with | ⟨0, _⟩ => rfl | ⟨1, _⟩ => rfl
    have er : ridx_main_v95 (ix2 s o) r = ix2 r o := by funext a; match a with | ⟨0, _⟩ => rfl | ⟨1, _⟩ => rfl
    rw [el, er]

/-- Adapter 6's correction: tokens masked by "number is 6", projected on the adapter's first factor, then through its second. -/
private theorem L6_apply (x0 : Vec Ideal S8192x4096 .f32) (x3 : Vec Ideal S8x16x4096 .f32)
    (x4 : Vec Ideal S1x8x4096x16 .f32) (x5 : Vec Ideal S8192 .i32) (s : Fin 8192) (o : Fin 4096) :
    val_main_v110 (F := Ideal) x0 x3 x4 x5 (ix2 s o) = ∑ r : Fin 16, (proj x0 x3 s 6 r * sel x5 s 6) * x4 (ix4 0 6 o r) := by
  refine stanza 6 x0 x3 x4 x5 (val_main_v102 (F := Ideal) x0 x5) (val_main_v105 (F := Ideal) x3) (val_main_v109 (F := Ideal) x4)
    (val_main_v106 (F := Ideal) x0 x3 x5) (val_main_v110 (F := Ideal) x0 x3 x4 x5) ?_ ?_ ?_ ?_ ?_ s o
  · -- the mask: the token's number compared with 6, converted, spread along the row
    intro s k
    rw [val_main_v102_apply, val_main_v101_apply, val_main_v100_apply, val_main_v99_apply, val_main_v98_apply, val_main_v97_apply, val_main_c_5_apply]
    have e : idx_main_v100 (idx_main_v101 (ix2 s k)) = ix1 s := funext fun a => Fin.ext (by match a with | ⟨0, _⟩ => rfl)
    rw [e]
    rfl
  · -- the first factor: slice 6 of a, as a 16 × 4096 matrix, transposed
    intro k r
    rw [val_main_v105_apply, val_main_v104_apply, val_main_v103_apply]
    congr 1
    funext a
    apply Fin.ext
    have hk := k.isLt
    have hr := r.isLt
    match a with
    | ⟨0, _⟩ => rfl
    | ⟨1, _⟩ => show (r.val * 4096 + k.val) / 4096 % 16 = r.val; omega
    | ⟨2, _⟩ => show (r.val * 4096 + k.val) % 4096 = k.val; omega
  · -- the second factor: slice 6 of b's three inner axes, as a 4096 × 16 matrix, transposed
    intro r o
    rw [val_main_v109_apply, val_main_v108_apply, val_main_v107_apply, val_main_v5_apply]
    congr 1
    funext a
    apply Fin.ext
    have ho := o.isLt
    have hr := r.isLt
    match a with
    | ⟨0, _⟩ => rfl
    | ⟨1, _⟩ => show (((6 + 0) * 4096 + (o.val * 16 + r.val) / 16 % 4096) * 16 + (o.val * 16 + r.val) % 16) / 65536 % 8 = 6; omega
    | ⟨2, _⟩ => show (((6 + 0) * 4096 + (o.val * 16 + r.val) / 16 % 4096) * 16 + (o.val * 16 + r.val) % 16) / 16 % 4096 = o.val; omega
    | ⟨3, _⟩ => show (((6 + 0) * 4096 + (o.val * 16 + r.val) / 16 % 4096) * 16 + (o.val * 16 + r.val) % 16) % 16 = r.val; omega
  · -- the projection, a plain product over the 4096 input columns
    intro s r
    rw [val_main_v106_apply]
    refine Finset.sum_congr rfl fun k _ => ?_
    have el : lidx_main_v106 (ix2 s r) k = ix2 s k := by funext a; match a with | ⟨0, _⟩ => rfl | ⟨1, _⟩ => rfl
    have er : ridx_main_v106 (ix2 s r) k = ix2 k r := by funext a; match a with | ⟨0, _⟩ => rfl | ⟨1, _⟩ => rfl
    rw [el, er]
  · -- the correction, a plain product over the 16 rank columns
    intro s o
    rw [val_main_v110_apply]
    refine Finset.sum_congr rfl fun r _ => ?_
    have el : lidx_main_v110 (ix2 s o) r = ix2 s r := by funext a; match a with | ⟨0, _⟩ => rfl | ⟨1, _⟩ => rfl
    have er : ridx_main_v110 (ix2 s o) r = ix2 r o := by funext a; match a with | ⟨0, _⟩ => rfl | ⟨1, _⟩ => rfl
    rw [el, er]

/-- Adapter 7's correction: tokens masked by "number is 7", projected on the adapter's first factor, then through its second. -/
private theorem L7_apply (x0 : Vec Ideal S8192x4096 .f32) (x3 : Vec Ideal S8x16x4096 .f32)
    (x4 : Vec Ideal S1x8x4096x16 .f32) (x5 : Vec Ideal S8192 .i32) (s : Fin 8192) (o : Fin 4096) :
    val_main_v125 (F := Ideal) x0 x3 x4 x5 (ix2 s o) = ∑ r : Fin 16, (proj x0 x3 s 7 r * sel x5 s 7) * x4 (ix4 0 7 o r) := by
  refine stanza 7 x0 x3 x4 x5 (val_main_v117 (F := Ideal) x0 x5) (val_main_v120 (F := Ideal) x3) (val_main_v124 (F := Ideal) x4)
    (val_main_v121 (F := Ideal) x0 x3 x5) (val_main_v125 (F := Ideal) x0 x3 x4 x5) ?_ ?_ ?_ ?_ ?_ s o
  · -- the mask: the token's number compared with 7, converted, spread along the row
    intro s k
    rw [val_main_v117_apply, val_main_v116_apply, val_main_v115_apply, val_main_v114_apply, val_main_v113_apply, val_main_v112_apply, val_main_c_6_apply]
    have e : idx_main_v115 (idx_main_v116 (ix2 s k)) = ix1 s := funext fun a => Fin.ext (by match a with | ⟨0, _⟩ => rfl)
    rw [e]
    rfl
  · -- the first factor: slice 7 of a, as a 16 × 4096 matrix, transposed
    intro k r
    rw [val_main_v120_apply, val_main_v119_apply, val_main_v118_apply]
    congr 1
    funext a
    apply Fin.ext
    have hk := k.isLt
    have hr := r.isLt
    match a with
    | ⟨0, _⟩ => rfl
    | ⟨1, _⟩ => show (r.val * 4096 + k.val) / 4096 % 16 = r.val; omega
    | ⟨2, _⟩ => show (r.val * 4096 + k.val) % 4096 = k.val; omega
  · -- the second factor: slice 7 of b's three inner axes, as a 4096 × 16 matrix, transposed
    intro r o
    rw [val_main_v124_apply, val_main_v123_apply, val_main_v122_apply, val_main_v5_apply]
    congr 1
    funext a
    apply Fin.ext
    have ho := o.isLt
    have hr := r.isLt
    match a with
    | ⟨0, _⟩ => rfl
    | ⟨1, _⟩ => show (((7 + 0) * 4096 + (o.val * 16 + r.val) / 16 % 4096) * 16 + (o.val * 16 + r.val) % 16) / 65536 % 8 = 7; omega
    | ⟨2, _⟩ => show (((7 + 0) * 4096 + (o.val * 16 + r.val) / 16 % 4096) * 16 + (o.val * 16 + r.val) % 16) / 16 % 4096 = o.val; omega
    | ⟨3, _⟩ => show (((7 + 0) * 4096 + (o.val * 16 + r.val) / 16 % 4096) * 16 + (o.val * 16 + r.val) % 16) % 16 = r.val; omega
  · -- the projection, a plain product over the 4096 input columns
    intro s r
    rw [val_main_v121_apply]
    refine Finset.sum_congr rfl fun k _ => ?_
    have el : lidx_main_v121 (ix2 s r) k = ix2 s k := by funext a; match a with | ⟨0, _⟩ => rfl | ⟨1, _⟩ => rfl
    have er : ridx_main_v121 (ix2 s r) k = ix2 k r := by funext a; match a with | ⟨0, _⟩ => rfl | ⟨1, _⟩ => rfl
    rw [el, er]
  · -- the correction, a plain product over the 16 rank columns
    intro s o
    rw [val_main_v125_apply]
    refine Finset.sum_congr rfl fun r _ => ?_
    have el : lidx_main_v125 (ix2 s o) r = ix2 s r := by funext a; match a with | ⟨0, _⟩ => rfl | ⟨1, _⟩ => rfl
    have er : ridx_main_v125 (ix2 s o) r = ix2 r o := by funext a; match a with | ⟨0, _⟩ => rfl | ⟨1, _⟩ => rfl
    rw [el, er]

/-- The dense part: x against the weight's transpose, plus the bias spread along the rows. -/
private theorem dense_apply (x0 : Vec Ideal S8192x4096 .f32) (x1 : Vec Ideal S4096x4096 .f32) (x2 : Vec Ideal S4096 .f32)
    (s : Fin 8192) (o : Fin 4096) :
    val_main_v4 (F := Ideal) x0 x1 x2 (ix2 s o) = base x0 x1 s o + x2 (ix1 o) := by
  rw [val_main_v4_apply, Ideal.addf_def, val_main_v1_apply, val_main_v3_apply, val_main_v2_apply]
  have e3 : idx_main_v2 (idx_main_v3 (ix2 s o)) = ix1 o := by funext a; match a with | ⟨0, _⟩ => rfl
  rw [e3]
  congr 1
  unfold base
  refine Finset.sum_congr rfl fun k _ => ?_
  rw [val_main_v0_apply]
  have el : lidx_main_v1 (ix2 s o) k = ix2 s k := by funext a; match a with | ⟨0, _⟩ => rfl | ⟨1, _⟩ => rfl
  have er : idx_main_v0 (ridx_main_v1 (ix2 s o) k) = ix2 o k := by funext a; match a with | ⟨0, _⟩ => rfl | ⟨1, _⟩ => rfl
  rw [el, er]

/-- The eight corrections added one after the other onto the zero constant: the sum over the adapters. -/
private theorem chain_apply (x0 : Vec Ideal S8192x4096 .f32) (x3 : Vec Ideal S8x16x4096 .f32)
    (x4 : Vec Ideal S1x8x4096x16 .f32) (x5 : Vec Ideal S8192 .i32) (s : Fin 8192) (o : Fin 4096) :
    val_main_v126 (F := Ideal) x0 x3 x4 x5 (ix2 s o) = lora x0 x3 x4 x5 s o := by
  rw [val_main_v126_apply, val_main_v111_apply, val_main_v96_apply, val_main_v81_apply, val_main_v66_apply,
    val_main_v51_apply, val_main_v36_apply, val_main_v21_apply, val_main_v6_apply, val_main_cst_apply]
  simp only [Ideal.addf_def, Ideal.ofBits_def, Ideal.ofBits_zero_f32]
  rw [L0_apply, L1_apply, L2_apply, L3_apply, L4_apply, L5_apply, L6_apply, L7_apply]
  exact Sums.chain8 (fun l : Fin 8 => ∑ r : Fin 16, (proj x0 x3 s l r * sel x5 s l) * x4 (ix4 0 l o r))

/-- The reference's result, as a function of its six arguments, is the specified function. -/
theorem ref_is_G (x0 : Vec Ideal S8192x4096 .f32) (x1 : Vec Ideal S4096x4096 .f32) (x2 : Vec Ideal S4096 .f32)
    (x3 : Vec Ideal S8x16x4096 .f32) (x4 : Vec Ideal S1x8x4096x16 .f32) (x5 : Vec Ideal S8192 .i32) :
    val_main_v129 (F := Ideal) x0 x1 x2 x3 x4 x5 = Cert.Lora.G x0 x1 x2 x3 x4 x5 := by
  funext i
  obtain ⟨s, o, rfl⟩ : ∃ (s : Fin 8192) (o : Fin 4096), i = ix2 s o := ⟨i 0, i 1, eq_ix2 i⟩
  rw [G_apply, val_main_v129_apply, Ideal.addf_def, dense_apply, val_main_v128_apply, Ideal.mulf_def,
    val_main_v127_apply, val_main_cst_7_apply, Ideal.ofBits_def, chain_apply]
  rfl

end Cert.Lora.Ref

end
-- ==== Proof.lean ====
/-
  A linear layer with per-token low-rank adapters, tiled and fused, against its plain definition.

  For token s with adapter number idx(s), both programs compute, over the extended reals,

      out(s, o) = (∑ₖ x(s,k)·w(o,k) + bias(o)) + 2 · ∑ₗ ∑ᵣ ((∑ₖ x(s,k)·a(l,r,k)) · sel(s,l)) · b(0,l,o,r),

  sel(s,l) being 1 when idx(s) = l and 0 otherwise (Spec.lean). The kernel tiles the output in 1024 × 1024 tiles and
  the 4096 input columns in eight blocks; it accumulates the dense product and the projections on ALL 128 adapter rows
  block by block (Accum.lean), and at the last block multiplies the projections by the repeated selection mask, sends
  them through the merged second factors, and adds bias and twice the result (KernelValue.lean). The reference masks
  the tokens BEFORE projecting, adapter by adapter, and adds the eight corrections one after the other (RefValue.lean).
  The two differ only by the order and grouping of finite sums and by where the 0-or-1 factor stands, and x·0 = 0 and
  (∑ …)·0 = 0 hold on the extended reals, infinities included: the inputs' finiteness is never used.
  The kernel's idealization rewrote nothing, so it is the kernel's own text read exactly.
-/
import proofs.«168198_j15144054685780_1_alg».proof.Defs
import proofs.«168198_j15144054685780_1_alg».proof.Proof.Gen.Kernel
import proofs.«168198_j15144054685780_1_alg».proof.Proof.Gen.Kernel.Skeleton
import proofs.«168198_j15144054685780_1_alg».proof.Proof.Gen.Kernel.Launch
import proofs.«168198_j15144054685780_1_alg».proof.Proof.Gen.Kernel.Points
import proofs.«168198_j15144054685780_1_alg».proof.Proof.Gen.Kernel.Frame
import proofs.«168198_j15144054685780_1_alg».proof.Proof.Gen.KernelIdeal
import proofs.«168198_j15144054685780_1_alg».proof.Proof.Gen.KernelIdeal.Skeleton
import proofs.«168198_j15144054685780_1_alg».proof.Proof.Gen.KernelIdeal.Launch
import proofs.«168198_j15144054685780_1_alg».proof.Proof.Gen.KernelIdeal.Points
import proofs.«168198_j15144054685780_1_alg».proof.Proof.Gen.KernelIdeal.Frame
import proofs.«168198_j15144054685780_1_alg».proof.Proof.Gen.ReferenceIdeal
import proofs.«168198_j15144054685780_1_alg».proof.Proof.Gen.Pre_finite_inputs
import proofs.«168198_j15144054685780_1_alg».proof.Proof.Gen.KernelIdeal.Value
import proofs.«168198_j15144054685780_1_alg».proof.Proof.Gen.ReferenceIdeal.Run
import proofs.«168198_j15144054685780_1_alg».proof.Proof.Gen.ReferenceIdeal.Read
import proofs.«168198_j15144054685780_1_alg».proof.Proof.KernelValue
import proofs.«168198_j15144054685780_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does the kernel read exactly. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments alone: its run, the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the six arguments, both programs end with the specified function of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Lora.KernelValue.Gm m c, Cert.Lora.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v129_eq, Cert.Lora.Ref.ref_is_G, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
